-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x40962 : Shape := ⟨3, ![16, 64, 40962]⟩
abbrev S71694 : Shape := ⟨1, ![71694]⟩
abbrev S448x128 : Shape := ⟨2, ![448, 128]⟩
abbrev S128 : Shape := ⟨1, ![128]⟩
abbrev S896x128 : Shape := ⟨2, ![896, 128]⟩
abbrev S_ : Shape := ⟨0, ![]⟩

class Facts : Prop where
  bcast_S_S16x64x40962 : S_.BroadcastsInDim S16x64x40962 (![] : Fin 0 → Fin S16x64x40962.rank)
  reducesTo_S16x64x40962_S_d0_1_2 : S16x64x40962.ReducesTo [0, 1, 2] S_
  h_S_ : 0 < S_.numel
  bcast_S_S448x128 : S_.BroadcastsInDim S448x128 (![] : Fin 0 → Fin S448x128.rank)
  reducesTo_S448x128_S_d0_1 : S448x128.ReducesTo [0, 1] S_
  bcast_S_S128 : S_.BroadcastsInDim S128 (![] : Fin 0 → Fin S128.rank)
  reducesTo_S128_S_d0 : S128.ReducesTo [0] S_
  bcast_S_S896x128 : S_.BroadcastsInDim S896x128 (![] : Fin 0 → Fin S896x128.rank)
  reducesTo_S896x128_S_d0_1 : S896x128.ReducesTo [0, 1] S_
  bcast_S_S71694 : S_.BroadcastsInDim S71694 (![] : Fin 0 → Fin S71694.rank)
  reducesTo_S71694_S_d0 : S71694.ReducesTo [0] S_

variable [Facts]

def fn_part3 {F : FTy → Type} [FloatOps F] (main_arg2 : IVec S71694 32) (main_v50 : IVec S_ 1) : IVec S_ 1 :=
  let main_c_19 : IVec S_ 32 := constantI S_ 32 4294957054#32
  let main_v51 : IVec S71694 32 := broadcastInDim S71694 ![] bcast_S_S71694 main_c_19
  let main_v52 : IVec S71694 1 := cmpi .sge main_arg2 main_v51
  let main_c_20 : IVec S_ 32 := constantI S_ 32 10242#32
  let main_v53 : IVec S71694 32 := broadcastInDim S71694 ![] bcast_S_S71694 main_c_20
  let main_v54 : IVec S71694 1 := cmpi .slt main_arg2 main_v53
  let main_v55 : IVec S71694 1 := andi main_v52 main_v54
  let main_c_21 : IVec S_ 1 := constantI S_ 1 1#1
  let main_v56 : IVec S_ 1 := (fun x v => Host.reduce IntOp.andi x v reducesTo_S71694_S_d0 h_S_) main_v55 main_c_21
  let main_v57 : IVec S_ 1 := andi main_v50 main_v56
  main_v57

def fn_part2 {F : FTy → Type} [FloatOps F] (main_arg1 : IVec S71694 32) (main_arg2 : IVec S71694 32) (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 4294926334#32
  let main_v44 : IVec S71694 32 := broadcastInDim S71694 ![] bcast_S_S71694 main_c_16
  let main_v45 : IVec S71694 1 := cmpi .sge main_arg1 main_v44
  let main_c_17 : IVec S_ 32 := constantI S_ 32 40962#32
  let main_v46 : IVec S71694 32 := broadcastInDim S71694 ![] bcast_S_S71694 main_c_17
  let main_v47 : IVec S71694 1 := cmpi .slt main_arg1 main_v46
  let main_v48 : IVec S71694 1 := andi main_v45 main_v47
  let main_c_18 : IVec S_ 1 := constantI S_ 1 1#1
  let main_v49 : IVec S_ 1 := (fun x v => Host.reduce IntOp.andi x v reducesTo_S71694_S_d0 h_S_) main_v48 main_c_18
  let main_v50 : IVec S_ 1 := andi main_v43 main_v49
  fn_part3 (F := F) main_arg2 main_v50

def fn_part1 {F : FTy → Type} [FloatOps F] (main_arg1 : IVec S71694 32) (main_arg2 : IVec S71694 32) (main_arg6 : FVec F S128 .f32) (main_arg7 : FVec F S896x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S896x128 .f32 := Host.absf main_arg7
  let main_cst_8 : FVec F S_ .f32 := constant S_ .f32 0x7F800000#32
  let main_v25 : FVec F S896x128 .f32 := broadcastInDim S896x128 ![] bcast_S_S896x128 main_cst_8
  let main_v26 : IVec S896x128 1 := cmpf .olt main_v24 main_v25
  let main_c_9 : IVec S_ 1 := constantI S_ 1 1#1
  let main_v27 : IVec S_ 1 := (fun x v => Host.reduce IntOp.andi x v reducesTo_S896x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S16x64x40962 .f32) (main_arg1 : IVec S71694 32) (main_arg2 : IVec S71694 32) (main_arg3 : FVec F S448x128 .f32) (main_arg4 : FVec F S128 .f32) (main_arg5 : FVec F S128 .f32) (main_arg6 : FVec F S128 .f32) (main_arg7 : FVec F S896x128 .f32) (main_arg8 : FVec F S128 .f32) (main_arg9 : FVec F S128 .f32) (main_arg10 : FVec F S128 .f32) : IVec S_ 1 :=
  let main_v0 : FVec F S16x64x40962 .f32 := Host.absf main_arg0
  let main_cst : FVec F S_ .f32 := constant S_ .f32 0x7F800000#32
  let main_v1 : FVec F S16x64x40962 .f32 := broadcastInDim S16x64x40962 ![] bcast_S_S16x64x40962 main_cst
  let main_v2 : IVec S16x64x40962 1 := cmpf .olt main_v0 main_v1
  let main_c : IVec S_ 1 := constantI S_ 1 1#1
  let main_v3 : IVec S_ 1 := (fun x v => Host.reduce IntOp.andi x v reducesTo_S16x64x40962_S_d0_1_2 h_S_) main_v2 main_c
  let main_v4 : FVec F S448x128 .f32 := Host.absf main_arg3
  let main_cst_0 : FVec F S_ .f32 := constant S_ .f32 0x7F800000#32
  let main_v5 : FVec F S448x128 .f32 := broadcastInDim S448x128 ![] bcast_S_S448x128 main_cst_0
  let main_v6 : IVec S448x128 1 := cmpf .olt main_v4 main_v5
  let main_c_1 : IVec S_ 1 := constantI S_ 1 1#1
  let main_v7 : IVec S_ 1 := (fun x v => Host.reduce IntOp.andi x v reducesTo_S448x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_arg9 main_arg10 main_v13 main_v16
-- ==== Kernel.lean ====
abbrev S16x64x40962 : Shape := ⟨3, ![16, 64, 40962]⟩
abbrev S71694 : Shape := ⟨1, ![71694]⟩
abbrev S448x128 : Shape := ⟨2, ![448, 128]⟩
abbrev S128 : Shape := ⟨1, ![128]⟩
abbrev S896x128 : Shape := ⟨2, ![896, 128]⟩
abbrev S16x40962x64 : Shape := ⟨3, ![16, 40962, 64]⟩
abbrev S_ : Shape := ⟨0, ![]⟩
abbrev S71694x1 : Shape := ⟨2, ![71694, 1]⟩
abbrev S1 : Shape := ⟨1, ![1]⟩
abbrev S1x1 : Shape := ⟨2, ![1, 1]⟩
abbrev S16x71694x64 : Shape := ⟨3, ![16, 71694, 64]⟩
abbrev S16x10242x7x64 : Shape := ⟨4, ![16, 10242, 7, 64]⟩
abbrev S16x10242x64 : Shape := ⟨3, ![16, 10242, 64]⟩
abbrev S16x10242x448 : Shape := ⟨3, ![16, 10242, 448]⟩
abbrev S16x10242x128 : Shape := ⟨3, ![16, 10242, 128]⟩
abbrev S1x10242x448 : Shape := ⟨3, ![1, 10242, 448]⟩
abbrev S1x10242x128 : Shape := ⟨3, ![1, 10242, 128]⟩
abbrev S10242x448 : Shape := ⟨2, ![10242, 448]⟩
abbrev S10242x128 : Shape := ⟨2, ![10242, 128]⟩
abbrev S1x128 : Shape := ⟨2, ![1, 128]⟩
abbrev S16x71694x128 : Shape := ⟨3, ![16, 71694, 128]⟩
abbrev S16x10242x896 : Shape := ⟨3, ![16, 10242, 896]⟩
abbrev S1x10242x896 : Shape := ⟨3, ![1, 10242, 896]⟩
abbrev S10242x896 : Shape := ⟨2, ![10242, 896]⟩
abbrev S16x128x10242 : Shape := ⟨3, ![16, 128, 10242]⟩

abbrev nBuf : Space → Nat
  | .hbm => 96
  | .vmem => 15
  | .smem => 0
  | _ => 0

abbrev bufTy : (tb : Table) → Fin (tcTables nBuf tb) → BufTy
  | .hbm, ⟨0, _⟩ => ⟨S16x64x40962, .f32⟩
  | .hbm, ⟨1, _⟩ => ⟨S71694, .i32⟩
  | .hbm, ⟨2, _⟩ => ⟨S71694, .i32⟩
  | .hbm, ⟨3, _⟩ => ⟨S448x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S896x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S16x40962x64, .f32⟩
  | .hbm, ⟨12, _⟩ => ⟨S_, .i32⟩
  | .hbm, ⟨13, _⟩ => ⟨S71694, .i32⟩
  | .hbm, ⟨14, _⟩ => ⟨S71694, .i1⟩
  | .hbm, ⟨15, _⟩ => ⟨S_, .i32⟩
  | .hbm, ⟨16, _⟩ => ⟨S71694, .i32⟩
  | .hbm, ⟨17, _⟩ => ⟨S71694, .i32⟩
  | .hbm, ⟨18, _⟩ => ⟨S71694, .i32⟩
  | .hbm, ⟨19, _⟩ => ⟨S71694x1, .i32⟩
  | .hbm, ⟨20, _⟩ => ⟨S1, .i32⟩
  | .hbm, ⟨21, _⟩ => ⟨S_, .i32⟩
  | .hbm, ⟨22, _⟩ => ⟨S71694x1, .i32⟩
  | .hbm, ⟨23, _⟩ => ⟨S71694x1, .i1⟩
  | .hbm, ⟨24, _⟩ => ⟨S1x1, .i32⟩
  | .hbm, ⟨25, _⟩ => ⟨S71694x1, .i32⟩
  | .hbm, ⟨26, _⟩ => ⟨S71694x1, .i1⟩
  | .hbm, ⟨27, _⟩ => ⟨S71694x1, .i1⟩
  | .hbm, ⟨28, _⟩ => ⟨S_, .i1⟩
  | .hbm, ⟨29, _⟩ => ⟨S71694, .i1⟩
  | .hbm, ⟨30, _⟩ => ⟨S16x71694x64, .f32⟩
  | .hbm, ⟨31, _⟩ => ⟨S16x71694x64, .i1⟩
  | .hbm, ⟨32, _⟩ => ⟨S_, .f32⟩
  | .hbm, ⟨33, _⟩ => ⟨S16x71694x64, .f32⟩
  | .hbm, ⟨34, _⟩ => ⟨S16x71694x64, .f32⟩
  | .hbm, ⟨35, _⟩ => ⟨S16x10242x7x64, .f32⟩
  | .hbm, ⟨36, _⟩ => ⟨S_, .f32⟩
  | .hbm, ⟨37, _⟩ => ⟨S16x10242x64, .f32⟩
  | .hbm, ⟨38, _⟩ => ⟨S_, .f32⟩
  | .hbm, ⟨39, _⟩ => ⟨S16x10242x64, .f32⟩
  | .hbm, ⟨40, _⟩ => ⟨S16x10242x64, .f32⟩
  | .hbm, ⟨41, _⟩ => ⟨S_, .i32⟩
  | .hbm, ⟨42, _⟩ => ⟨S71694, .i32⟩
  | .hbm, ⟨43, _⟩ => ⟨S71694, .i1⟩
  | .hbm, ⟨44, _⟩ => ⟨S_, .i32⟩
  | .hbm, ⟨45, _⟩ => ⟨S71694, .i32⟩
  | .hbm, ⟨46, _⟩ => ⟨S71694, .i32⟩
  | .hbm, ⟨47, _⟩ => ⟨S71694, .i32⟩
  | .hbm, ⟨48, _⟩ => ⟨S71694x1, .i32⟩
  | .hbm, ⟨49, _⟩ => ⟨S1, .i32⟩
  | .hbm, ⟨50, _⟩ => ⟨S_, .i32⟩
  | .hbm, ⟨51, _⟩ => ⟨S71694x1, .i32⟩
  | .hbm, ⟨52, _⟩ => ⟨S71694x1, .i1⟩
  | .hbm, ⟨53, _⟩ => ⟨S1x1, .i32⟩
  | .hbm, ⟨54, _⟩ => ⟨S71694x1, .i32⟩
  | .hbm, ⟨55, _⟩ => ⟨S71694x1, .i1⟩
  | .hbm, ⟨56, _⟩ => ⟨S71694x1, .i1⟩
  | .hbm, ⟨57, _⟩ => ⟨S_, .i1⟩
  | .hbm, ⟨58, _⟩ => ⟨S71694, .i1⟩
  | .hbm, ⟨59, _⟩ => ⟨S16x71694x64, .f32⟩
  | .hbm, ⟨60, _⟩ => ⟨S16x71694x64, .i1⟩
  | .hbm, ⟨61, _⟩ => ⟨S_, .f32⟩
  | .hbm, ⟨62, _⟩ => ⟨S16x71694x64, .f32⟩
  | .hbm, ⟨63, _⟩ => ⟨S16x71694x64, .f32⟩
  | .hbm, ⟨64, _⟩ => ⟨S16x10242x448, .f32⟩
  | .hbm, ⟨65, _⟩ => ⟨S16x10242x448, .bf16⟩
  | .hbm, ⟨66, _⟩ => ⟨S448x128, .bf16⟩
  | .hbm, ⟨67, _⟩ => ⟨S16x10242x128, .f32⟩
  | .hbm, ⟨68, _⟩ => ⟨S_, .i32⟩
  | .hbm, ⟨69, _⟩ => ⟨S71694, .i32⟩
  | .hbm, ⟨70, _⟩ => ⟨S71694, .i1⟩
  | .hbm, ⟨71, _⟩ => ⟨S_, .i32⟩
  | .hbm, ⟨72, _⟩ => ⟨S71694, .i32⟩
  | .hbm, ⟨73, _⟩ => ⟨S71694, .i32⟩
  | .hbm, ⟨74, _⟩ => ⟨S71694, .i32⟩
  | .hbm, ⟨75, _⟩ => ⟨S71694x1, .i32⟩
  | .hbm, ⟨76, _⟩ => ⟨S1, .i32⟩
  | .hbm, ⟨77, _⟩ => ⟨S_, .i32⟩
  | .hbm, ⟨78, _⟩ => ⟨S71694x1, .i32⟩
  | .hbm, ⟨79, _⟩ => ⟨S71694x1, .i1⟩
  | .hbm, ⟨80, _⟩ => ⟨S1x1, .i32⟩
  | .hbm, ⟨81, _⟩ => ⟨S71694x1, .i32⟩
  | .hbm, ⟨82, _⟩ => ⟨S71694x1, .i1⟩
  | .hbm, ⟨83, _⟩ => ⟨S71694x1, .i1⟩
  | .hbm, ⟨84, _⟩ => ⟨S_, .i1⟩
  | .hbm, ⟨85, _⟩ => ⟨S71694, .i1⟩
  | .hbm, ⟨86, _⟩ => ⟨S16x71694x128, .f32⟩
  | .hbm, ⟨87, _⟩ => ⟨S16x71694x128, .i1⟩
  | .hbm, ⟨88, _⟩ => ⟨S_, .f32⟩
  | .hbm, ⟨89, _⟩ => ⟨S16x71694x128, .f32⟩
  | .hbm, ⟨90, _⟩ => ⟨S16x71694x128, .f32⟩
  | .hbm, ⟨91, _⟩ => ⟨S16x10242x896, .f32⟩
  | .hbm, ⟨92, _⟩ => ⟨S16x10242x896, .bf16⟩
  | .hbm, ⟨93, _⟩ => ⟨S896x128, .bf16⟩
  | .hbm, ⟨94, _⟩ => ⟨S16x10242x128, .f32⟩
  | .hbm, ⟨95, _⟩ => ⟨S16x128x10242, .f32⟩
  | .local _ .vmem, ⟨0, _⟩ => ⟨S1x10242x448, .bf16⟩
  | .local _ .vmem, ⟨1, _⟩ => ⟨S1x10242x448, .bf16⟩
  | .local _ .vmem, ⟨2, _⟩ => ⟨S448x128, .bf16⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S1x10242x128, .f32⟩
  | .local _ .vmem, ⟨7, _⟩ => ⟨S1x10242x128, .f32⟩
  | .local _ .vmem, ⟨8, _⟩ => ⟨S1x10242x896, .bf16⟩
  | .local _ .vmem, ⟨9, _⟩ => ⟨S896x128, .bf16⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S1x10242x128, .f32⟩
  | .local _ .vmem, ⟨14, _⟩ => ⟨S1x10242x128, .f32⟩
  | _, _ => ⟨S16x64x40962, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v1 : Ref sig .tc := ⟨.hbm, 34, rfl⟩
abbrev main_v2 : Ref sig .tc := ⟨.hbm, 35, rfl⟩
abbrev main_cst : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_v5 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v11 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10242x448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S448x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x10242x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x10242x896 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S896x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x10242x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S16x64x40962_S16x40962x64_0_2_1 : S16x64x40962.Transposes [0, 2, 1] S16x40962x64
  bcast_S_S71694 : S_.BroadcastsInDim S71694 (![] : Fin 0 → Fin S71694.rank)
  bcast_S71694_S71694x1_0 : S71694.BroadcastsInDim S71694x1 (![0] : Fin 1 → Fin S71694x1.rank)
  bcast_S_S71694x1 : S_.BroadcastsInDim S71694x1 (![] : Fin 0 → Fin S71694x1.rank)
  bcast_S1_S1x1_1 : S1.BroadcastsInDim S1x1 (![1] : Fin 1 → Fin S1x1.rank)
  bcast_S1x1_S71694x1_0_1 : S1x1.BroadcastsInDim S71694x1 (![0, 1] : Fin 2 → Fin S71694x1.rank)
  reducesTo_S71694x1_S71694_d1 : S71694x1.ReducesTo [1] S71694
  h_S_ : 0 < S_.numel
  bcast_S71694_S16x71694x64_1 : S71694.BroadcastsInDim S16x71694x64 (![1] : Fin 1 → Fin S16x71694x64.rank)
  bcast_S_S16x71694x64 : S_.BroadcastsInDim S16x71694x64 (![] : Fin 0 → Fin S16x71694x64.rank)
  shapeCasts_S16x71694x64_S16x10242x7x64 : S16x71694x64.ShapeCasts S16x10242x7x64
  reducesTo_S16x10242x7x64_S16x10242x64_d2 : S16x10242x7x64.ReducesTo [2] S16x10242x64
  bcast_S_S16x10242x64 : S_.BroadcastsInDim S16x10242x64 (![] : Fin 0 → Fin S16x10242x64.rank)
  shapeCasts_S16x71694x64_S16x10242x448 : S16x71694x64.ShapeCasts S16x10242x448
  bitsLt_bf16_f32 : FTy.bits .bf16 < FTy.bits .f32
  inb_S1x10242x448_S1x10242x448_0_0_0 : ∀ a, (![0, 0, 0] : Fin 3 → Nat) a + S1x10242x448.size a ≤ S1x10242x448.size a
  h_S1x10242x448 : 0 < S1x10242x448.numel
  shapeCasts_S1x10242x448_S10242x448 : S1x10242x448.ShapeCasts S10242x448
  inb_S448x128_S448x128_0_0 : ∀ a, (![0, 0] : Fin 2 → Nat) a + S448x128.size a ≤ S448x128.size a
  h_S448x128 : 0 < S448x128.numel
  shapeCasts_S448x128_S448x128 : S448x128.ShapeCasts S448x128
  inb_S128_S128_0 : ∀ a, (![0] : Fin 1 → Nat) a + S128.size a ≤ S128.size a
  h_S128 : 0 < S128.numel
  shapeCasts_S128_S1x128 : S128.ShapeCasts S1x128
  broadcasts_S1x128_S10242x128 : S1x128.Broadcasts S10242x128
  reduces_S10242x128_S128 : S10242x128.Reduces [0] S128
  inb_S1x10242x128_S1x10242x128_0_0_0 : ∀ a, (![0, 0, 0] : Fin 3 → Nat) a + S1x10242x128.size a ≤ S1x10242x128.size a
  h_S1x10242x128 : 0 < S1x10242x128.numel
  shapeCasts_S1x10242x128_S10242x128 : S1x10242x128.ShapeCasts S10242x128
  shapeCasts_S10242x128_S1x10242x128 : S10242x128.ShapeCasts S1x10242x128
  bcast_S71694_S16x71694x128_1 : S71694.BroadcastsInDim S16x71694x128 (![1] : Fin 1 → Fin S16x71694x128.rank)
  bcast_S_S16x71694x128 : S_.BroadcastsInDim S16x71694x128 (![] : Fin 0 → Fin S16x71694x128.rank)
  shapeCasts_S16x71694x128_S16x10242x896 : S16x71694x128.ShapeCasts S16x10242x896
  inb_S1x10242x896_S1x10242x896_0_0_0 : ∀ a, (![0, 0, 0] : Fin 3 → Nat) a + S1x10242x896.size a ≤ S1x10242x896.size a
  h_S1x10242x896 : 0 < S1x10242x896.numel
  shapeCasts_S1x10242x896_S10242x896 : S1x10242x896.ShapeCasts S10242x896
  inb_S896x128_S896x128_0_0 : ∀ a, (![0, 0] : Fin 2 → Nat) a + S896x128.size a ≤ S896x128.size a
  h_S896x128 : 0 < S896x128.numel
  shapeCasts_S896x128_S896x128 : S896x128.ShapeCasts S896x128
  transposes_S16x10242x128_S16x128x10242_0_2_1 : S16x10242x128.Transposes [0, 2, 1] S16x128x10242
  gather_S16x40962x64_S71694x1_S16x71694x64_02_1_n_n_1_1_16164_wf : GatherDims.WF S16x40962x64 S71694x1 S16x71694x64 [0, 2] [1] [] [1] [] 1 ![16, 1, 64]
  gather_S16x10242x64_S71694x1_S16x71694x64_02_1_n_n_1_1_16164_wf : GatherDims.WF S16x10242x64 S71694x1 S16x71694x64 [0, 2] [1] [] [1] [] 1 ![16, 1, 64]
  dot_S10242x448_S448x128_S10242x128_1_0_0_1_n_n_wf : DotDims.WF S10242x448 S448x128 S10242x128 [1] [0] [0] [1] [] []
  gather_S16x10242x128_S71694x1_S16x71694x128_02_1_n_n_1_1_161128_wf : GatherDims.WF S16x10242x128 S71694x1 S16x71694x128 [0, 2] [1] [] [1] [] 1 ![16, 1, 128]
  dot_S10242x896_S896x128_S10242x128_1_0_0_1_n_n_wf : DotDims.WF S10242x896 S896x128 S10242x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10242x448.size a ≤ S16x10242x448.size a
  hwx0_0 : ∀ i : grid0.Coords, EltTy.bits .bf16 = 32 ∨ (Rect.block (s := S16x10242x448) S1x10242x448.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S448x128.size a ≤ S448x128.size a
  hwx0_1 : ∀ i : grid0.Coords, EltTy.bits .bf16 = 32 ∨ (Rect.block (s := S448x128) S448x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x10242x128.size a ≤ S16x10242x128.size a
  hwx0_5 : ∀ i : grid0.Coords, EltTy.bits .f32 = 32 ∨ (Rect.block (s := S16x10242x128) S1x10242x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x10242x896.size a ≤ S16x10242x896.size a
  hwx1_0 : ∀ i : grid1.Coords, EltTy.bits .bf16 = 32 ∨ (Rect.block (s := S16x10242x896) S1x10242x896.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S896x128.size a ≤ S896x128.size a
  hwx1_1 : ∀ i : grid1.Coords, EltTy.bits .bf16 = 32 ∨ (Rect.block (s := S896x128) S896x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x10242x128.size a ≤ S16x10242x128.size a
  hwx1_5 : ∀ i : grid1.Coords, EltTy.bits .f32 = 32 ∨ (Rect.block (s := S16x10242x128) S1x10242x128.size (cc1_transform_5 i) (hinb1_5 i)).WholeWords (EltTy.packing .f32)

variable [Facts₀]

def gather_S16x40962x64_S71694x1_S16x71694x64_02_1_n_n_1_1_16164 : GatherDims S16x40962x64 S71694x1 S16x71694x64 where
  offsetDims := [0, 2]
  collapsedSliceDims := [1]
  operandBatchingDims := []
  startIndicesBatchingDims := []
  startIndexMap := [1]
  indexVectorDim := 1
  sliceSizes := ![16, 1, 64]
  wf := gather_S16x40962x64_S71694x1_S16x71694x64_02_1_n_n_1_1_16164_wf
def gather_S16x10242x64_S71694x1_S16x71694x64_02_1_n_n_1_1_16164 : GatherDims S16x10242x64 S71694x1 S16x71694x64 where
  offsetDims := [0, 2]
  collapsedSliceDims := [1]
  operandBatchingDims := []
  startIndicesBatchingDims := []
  startIndexMap := [1]
  indexVectorDim := 1
  sliceSizes := ![16, 1, 64]
  wf := gather_S16x10242x64_S71694x1_S16x71694x64_02_1_n_n_1_1_16164_wf
def dot_S10242x448_S448x128_S10242x128_1_0_0_1_n_n : DotDims S10242x448 S448x128 S10242x128 where
  lhsContracting := [1]
  rhsContracting := [0]
  lhsNonContracting := [0]
  rhsNonContracting := [1]
  lhsBatch := []
  rhsBatch := []
  wf := dot_S10242x448_S448x128_S10242x128_1_0_0_1_n_n_wf
def gather_S16x10242x128_S71694x1_S16x71694x128_02_1_n_n_1_1_161128 : GatherDims S16x10242x128 S71694x1 S16x71694x128 where
  offsetDims := [0, 2]
  collapsedSliceDims := [1]
  operandBatchingDims := []
  startIndicesBatchingDims := []
  startIndexMap := [1]
  indexVectorDim := 1
  sliceSizes := ![16, 1, 128]
  wf := gather_S16x10242x128_S71694x1_S16x71694x128_02_1_n_n_1_1_161128_wf
def dot_S10242x896_S896x128_S10242x128_1_0_0_1_n_n : DotDims S10242x896 S896x128 S10242x128 where
  lhsContracting := [1]
  rhsContracting := [0]
  lhsNonContracting := [0]
  rhsNonContracting := [1]
  lhsBatch := []
  rhsBatch := []
  wf := dot_S10242x896_S896x128_S10242x128_1_0_0_1_n_n_wf

abbrev win0_0 : Pipeline.Window sig grid0 :=
  Pipeline.Window.ofSpec (Memref.whole main_v8) S1x10242x448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S448x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x10242x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S1x10242x896.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v14) S896x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x10242x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x64x40962 : Shape := ⟨3, ![16, 64, 40962]⟩
abbrev S71694 : Shape := ⟨1, ![71694]⟩
abbrev S448x128 : Shape := ⟨2, ![448, 128]⟩
abbrev S128 : Shape := ⟨1, ![128]⟩
abbrev S896x128 : Shape := ⟨2, ![896, 128]⟩
abbrev S16x40962x64 : Shape := ⟨3, ![16, 40962, 64]⟩
abbrev S_ : Shape := ⟨0, ![]⟩
abbrev S71694x1 : Shape := ⟨2, ![71694, 1]⟩
abbrev S16x71694x64 : Shape := ⟨3, ![16, 71694, 64]⟩
abbrev S16x10242x7x64 : Shape := ⟨4, ![16, 10242, 7, 64]⟩
abbrev S16x10242x64 : Shape := ⟨3, ![16, 10242, 64]⟩
abbrev S16x10242x448 : Shape := ⟨3, ![16, 10242, 448]⟩
abbrev S16x10242x128 : Shape := ⟨3, ![16, 10242, 128]⟩
abbrev S1x1x128 : Shape := ⟨3, ![1, 1, 128]⟩
abbrev S16x128 : Shape := ⟨2, ![16, 128]⟩
abbrev S16x1x128 : Shape := ⟨3, ![16, 1, 128]⟩
abbrev S16x71694x128 : Shape := ⟨3, ![16, 71694, 128]⟩
abbrev S16x10242x896 : Shape := ⟨3, ![16, 10242, 896]⟩
abbrev S16x128x10242 : Shape := ⟨3, ![16, 128, 10242]⟩

abbrev nBuf : Space → Nat
  | .hbm => 128
  | .vmem => 0
  | .smem => 0
  | _ => 0

abbrev bufTy : (tb : Table) → Fin (tcTables nBuf tb) → BufTy
  | .hbm, ⟨0, _⟩ => ⟨S16x64x40962, .f32⟩
  | .hbm, ⟨1, _⟩ => ⟨S71694, .i32⟩
  | .hbm, ⟨2, _⟩ => ⟨S71694, .i32⟩
  | .hbm, ⟨3, _⟩ => ⟨S448x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S896x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S16x40962x64, .f32⟩
  | .hbm, ⟨12, _⟩ => ⟨S_, .i32⟩
  | .hbm, ⟨13, _⟩ => ⟨S71694, .i32⟩
  | .hbm, ⟨14, _⟩ => ⟨S71694, .i1⟩
  | .hbm, ⟨15, _⟩ => ⟨S_, .i32⟩
  | .hbm, ⟨16, _⟩ => ⟨S71694, .i32⟩
  | .hbm, ⟨17, _⟩ => ⟨S71694, .i32⟩
  | .hbm, ⟨18, _⟩ => ⟨S71694, .i32⟩
  | .hbm, ⟨19, _⟩ => ⟨S71694x1, .i32⟩
  | .hbm, ⟨20, _⟩ => ⟨S16x71694x64, .f32⟩
  | .hbm, ⟨21, _⟩ => ⟨S16x10242x7x64, .f32⟩
  | .hbm, ⟨22, _⟩ => ⟨S_, .f32⟩
  | .hbm, ⟨23, _⟩ => ⟨S16x10242x64, .f32⟩
  | .hbm, ⟨24, _⟩ => ⟨S_, .f32⟩
  | .hbm, ⟨25, _⟩ => ⟨S16x10242x64, .f32⟩
  | .hbm, ⟨26, _⟩ => ⟨S16x10242x64, .f32⟩
  | .hbm, ⟨27, _⟩ => ⟨S_, .i32⟩
  | .hbm, ⟨28, _⟩ => ⟨S71694, .i32⟩
  | .hbm, ⟨29, _⟩ => ⟨S71694, .i1⟩
  | .hbm, ⟨30, _⟩ => ⟨S_, .i32⟩
  | .hbm, ⟨31, _⟩ => ⟨S71694, .i32⟩
  | .hbm, ⟨32, _⟩ => ⟨S71694, .i32⟩
  | .hbm, ⟨33, _⟩ => ⟨S71694, .i32⟩
  | .hbm, ⟨34, _⟩ => ⟨S71694x1, .i32⟩
  | .hbm, ⟨35, _⟩ => ⟨S16x71694x64, .f32⟩
  | .hbm, ⟨36, _⟩ => ⟨S16x10242x448, .f32⟩
  | .hbm, ⟨37, _⟩ => ⟨S16x10242x128, .f32⟩
  | .hbm, ⟨38, _⟩ => ⟨S1x1x128, .f32⟩
  | .hbm, ⟨39, _⟩ => ⟨S16x10242x128, .f32⟩
  | .hbm, ⟨40, _⟩ => ⟨S16x10242x128, .f32⟩
  | .hbm, ⟨41, _⟩ => ⟨S_, .f32⟩
  | .hbm, ⟨42, _⟩ => ⟨S16x128, .f32⟩
  | .hbm, ⟨43, _⟩ => ⟨S16x1x128, .f32⟩
  | .hbm, ⟨44, _⟩ => ⟨S_, .f32⟩
  | .hbm, ⟨45, _⟩ => ⟨S16x1x128, .f32⟩
  | .hbm, ⟨46, _⟩ => ⟨S16x1x128, .f32⟩
  | .hbm, ⟨47, _⟩ => ⟨S16x10242x128, .f32⟩
  | .hbm, ⟨48, _⟩ => ⟨S16x10242x128, .f32⟩
  | .hbm, ⟨49, _⟩ => ⟨S16x10242x128, .f32⟩
  | .hbm, ⟨50, _⟩ => ⟨S_, .f32⟩
  | .hbm, ⟨51, _⟩ => ⟨S16x128, .f32⟩
  | .hbm, ⟨52, _⟩ => ⟨S16x1x128, .f32⟩
  | .hbm, ⟨53, _⟩ => ⟨S_, .f32⟩
  | .hbm, ⟨54, _⟩ => ⟨S16x1x128, .f32⟩
  | .hbm, ⟨55, _⟩ => ⟨S16x1x128, .f32⟩
  | .hbm, ⟨56, _⟩ => ⟨S16x10242x128, .f32⟩
  | .hbm, ⟨57, _⟩ => ⟨S16x10242x128, .f32⟩
  | .hbm, ⟨58, _⟩ => ⟨S_, .f32⟩
  | .hbm, ⟨59, _⟩ => ⟨S16x1x128, .f32⟩
  | .hbm, ⟨60, _⟩ => ⟨S16x1x128, .f32⟩
  | .hbm, ⟨61, _⟩ => ⟨S16x1x128, .f32⟩
  | .hbm, ⟨62, _⟩ => ⟨S16x10242x128, .f32⟩
  | .hbm, ⟨63, _⟩ => ⟨S16x10242x128, .f32⟩
  | .hbm, ⟨64, _⟩ => ⟨S1x1x128, .f32⟩
  | .hbm, ⟨65, _⟩ => ⟨S16x10242x128, .f32⟩
  | .hbm, ⟨66, _⟩ => ⟨S16x10242x128, .f32⟩
  | .hbm, ⟨67, _⟩ => ⟨S1x1x128, .f32⟩
  | .hbm, ⟨68, _⟩ => ⟨S16x10242x128, .f32⟩
  | .hbm, ⟨69, _⟩ => ⟨S16x10242x128, .f32⟩
  | .hbm, ⟨70, _⟩ => ⟨S_, .f32⟩
  | .hbm, ⟨71, _⟩ => ⟨S16x10242x128, .f32⟩
  | .hbm, ⟨72, _⟩ => ⟨S16x10242x128, .i1⟩
  | .hbm, ⟨73, _⟩ => ⟨S_, .f32⟩
  | .hbm, ⟨74, _⟩ => ⟨S16x10242x128, .f32⟩
  | .hbm, ⟨75, _⟩ => ⟨S16x10242x128, .f32⟩
  | .hbm, ⟨76, _⟩ => ⟨S16x10242x128, .f32⟩
  | .hbm, ⟨77, _⟩ => ⟨S_, .i32⟩
  | .hbm, ⟨78, _⟩ => ⟨S71694, .i32⟩
  | .hbm, ⟨79, _⟩ => ⟨S71694, .i1⟩
  | .hbm, ⟨80, _⟩ => ⟨S_, .i32⟩
  | .hbm, ⟨81, _⟩ => ⟨S71694, .i32⟩
  | .hbm, ⟨82, _⟩ => ⟨S71694, .i32⟩
  | .hbm, ⟨83, _⟩ => ⟨S71694, .i32⟩
  | .hbm, ⟨84, _⟩ => ⟨S71694x1, .i32⟩
  | .hbm, ⟨85, _⟩ => ⟨S16x71694x128, .f32⟩
  | .hbm, ⟨86, _⟩ => ⟨S16x10242x896, .f32⟩
  | .hbm, ⟨87, _⟩ => ⟨S16x10242x128, .f32⟩
  | .hbm, ⟨88, _⟩ => ⟨S1x1x128, .f32⟩
  | .hbm, ⟨89, _⟩ => ⟨S16x10242x128, .f32⟩
  | .hbm, ⟨90, _⟩ => ⟨S16x10242x128, .f32⟩
  | .hbm, ⟨91, _⟩ => ⟨S_, .f32⟩
  | .hbm, ⟨92, _⟩ => ⟨S16x128, .f32⟩
  | .hbm, ⟨93, _⟩ => ⟨S16x1x128, .f32⟩
  | .hbm, ⟨94, _⟩ => ⟨S_, .f32⟩
  | .hbm, ⟨95, _⟩ => ⟨S16x1x128, .f32⟩
  | .hbm, ⟨96, _⟩ => ⟨S16x1x128, .f32⟩
  | .hbm, ⟨97, _⟩ => ⟨S16x10242x128, .f32⟩
  | .hbm, ⟨98, _⟩ => ⟨S16x10242x128, .f32⟩
  | .hbm, ⟨99, _⟩ => ⟨S16x10242x128, .f32⟩
  | .hbm, ⟨100, _⟩ => ⟨S_, .f32⟩
  | .hbm, ⟨101, _⟩ => ⟨S16x128, .f32⟩
  | .hbm, ⟨102, _⟩ => ⟨S16x1x128, .f32⟩
  | .hbm, ⟨103, _⟩ => ⟨S_, .f32⟩
  | .hbm, ⟨104, _⟩ => ⟨S16x1x128, .f32⟩
  | .hbm, ⟨105, _⟩ => ⟨S16x1x128, .f32⟩
  | .hbm, ⟨106, _⟩ => ⟨S16x10242x128, .f32⟩
  | .hbm, ⟨107, _⟩ => ⟨S16x10242x128, .f32⟩
  | .hbm, ⟨108, _⟩ => ⟨S_, .f32⟩
  | .hbm, ⟨109, _⟩ => ⟨S16x1x128, .f32⟩
  | .hbm, ⟨110, _⟩ => ⟨S16x1x128, .f32⟩
  | .hbm, ⟨111, _⟩ => ⟨S16x1x128, .f32⟩
  | .hbm, ⟨112, _⟩ => ⟨S16x10242x128, .f32⟩
  | .hbm, ⟨113, _⟩ => ⟨S16x10242x128, .f32⟩
  | .hbm, ⟨114, _⟩ => ⟨S1x1x128, .f32⟩
  | .hbm, ⟨115, _⟩ => ⟨S16x10242x128, .f32⟩
  | .hbm, ⟨116, _⟩ => ⟨S16x10242x128, .f32⟩
  | .hbm, ⟨117, _⟩ => ⟨S1x1x128, .f32⟩
  | .hbm, ⟨118, _⟩ => ⟨S16x10242x128, .f32⟩
  | .hbm, ⟨119, _⟩ => ⟨S16x10242x128, .f32⟩
  | .hbm, ⟨120, _⟩ => ⟨S_, .f32⟩
  | .hbm, ⟨121, _⟩ => ⟨S16x10242x128, .f32⟩
  | .hbm, ⟨122, _⟩ => ⟨S16x10242x128, .i1⟩
  | .hbm, ⟨123, _⟩ => ⟨S_, .f32⟩
  | .hbm, ⟨124, _⟩ => ⟨S16x10242x128, .f32⟩
  | .hbm, ⟨125, _⟩ => ⟨S16x10242x128, .f32⟩
  | .hbm, ⟨126, _⟩ => ⟨S16x10242x128, .f32⟩
  | .hbm, ⟨127, _⟩ => ⟨S16x128x10242, .f32⟩
  | _, _ => ⟨S16x64x40962, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]

class Facts₀ : Prop where
  transposes_S16x64x40962_S16x40962x64_0_2_1 : S16x64x40962.Transposes [0, 2, 1] S16x40962x64
  bcast_S_S71694 : S_.BroadcastsInDim S71694 (![] : Fin 0 → Fin S71694.rank)
  bcast_S71694_S71694x1_0 : S71694.BroadcastsInDim S71694x1 (![0] : Fin 1 → Fin S71694x1.rank)
  shapeCasts_S16x71694x64_S16x10242x7x64 : S16x71694x64.ShapeCasts S16x10242x7x64
  reducesTo_S16x10242x7x64_S16x10242x64_d2 : S16x10242x7x64.ReducesTo [2] S16x10242x64
  h_S_ : 0 < S_.numel
  bcast_S_S16x10242x64 : S_.BroadcastsInDim S16x10242x64 (![] : Fin 0 → Fin S16x10242x64.rank)
  shapeCasts_S16x71694x64_S16x10242x448 : S16x71694x64.ShapeCasts S16x10242x448
  bcast_S128_S1x1x128_2 : S128.BroadcastsInDim S1x1x128 (![2] : Fin 1 → Fin S1x1x128.rank)
  bcast_S1x1x128_S16x10242x128_0_1_2 : S1x1x128.BroadcastsInDim S16x10242x128 (![0, 1, 2] : Fin 3 → Fin S16x10242x128.rank)
  reducesTo_S16x10242x128_S16x128_d1 : S16x10242x128.ReducesTo [1] S16x128
  bcast_S16x128_S16x1x128_0_2 : S16x128.BroadcastsInDim S16x1x128 (![0, 2] : Fin 2 → Fin S16x1x128.rank)
  bcast_S_S16x1x128 : S_.BroadcastsInDim S16x1x128 (![] : Fin 0 → Fin S16x1x128.rank)
  bcast_S16x1x128_S16x10242x128_0_1_2 : S16x1x128.BroadcastsInDim S16x10242x128 (![0, 1, 2] : Fin 3 → Fin S16x10242x128.rank)
  bcast_S_S16x10242x128 : S_.BroadcastsInDim S16x10242x128 (![] : Fin 0 → Fin S16x10242x128.rank)
  shapeCasts_S16x71694x128_S16x10242x896 : S16x71694x128.ShapeCasts S16x10242x896
  transposes_S16x10242x128_S16x128x10242_0_2_1 : S16x10242x128.Transposes [0, 2, 1] S16x128x10242
  gather_S16x40962x64_S71694x1_S16x71694x64_02_1_n_n_1_1_16164_wf : GatherDims.WF S16x40962x64 S71694x1 S16x71694x64 [0, 2] [1] [] [1] [] 1 ![16, 1, 64]
  gather_S16x10242x64_S71694x1_S16x71694x64_02_1_n_n_1_1_16164_wf : GatherDims.WF S16x10242x64 S71694x1 S16x71694x64 [0, 2] [1] [] [1] [] 1 ![16, 1, 64]
  dot_S16x10242x448_S448x128_S16x10242x128_2_0_01_1_n_n_wf : DotDims.WF S16x10242x448 S448x128 S16x10242x128 [2] [0] [0, 1] [1] [] []
  gather_S16x10242x128_S71694x1_S16x71694x128_02_1_n_n_1_1_161128_wf : GatherDims.WF S16x10242x128 S71694x1 S16x71694x128 [0, 2] [1] [] [1] [] 1 ![16, 1, 128]
  dot_S16x10242x896_S896x128_S16x10242x128_2_0_01_1_n_n_wf : DotDims.WF S16x10242x896 S896x128 S16x10242x128 [2] [0] [0, 1] [1] [] []

variable [Facts₀]

def gather_S16x40962x64_S71694x1_S16x71694x64_02_1_n_n_1_1_16164 : GatherDims S16x40962x64 S71694x1 S16x71694x64 where
  offsetDims := [0, 2]
  collapsedSliceDims := [1]
  operandBatchingDims := []
  startIndicesBatchingDims := []
  startIndexMap := [1]
  indexVectorDim := 1
  sliceSizes := ![16, 1, 64]
  wf := gather_S16x40962x64_S71694x1_S16x71694x64_02_1_n_n_1_1_16164_wf
def gather_S16x10242x64_S71694x1_S16x71694x64_02_1_n_n_1_1_16164 : GatherDims S16x10242x64 S71694x1 S16x71694x64 where
  offsetDims := [0, 2]
  collapsedSliceDims := [1]
  operandBatchingDims := []
  startIndicesBatchingDims := []
  startIndexMap := [1]
  indexVectorDim := 1
  sliceSizes := ![16, 1, 64]
  wf := gather_S16x10242x64_S71694x1_S16x71694x64_02_1_n_n_1_1_16164_wf
def dot_S16x10242x448_S448x128_S16x10242x128_2_0_01_1_n_n : DotDims S16x10242x448 S448x128 S16x10242x128 where
  lhsContracting := [2]
  rhsContracting := [0]
  lhsNonContracting := [0, 1]
  rhsNonContracting := [1]
  lhsBatch := []
  rhsBatch := []
  wf := dot_S16x10242x448_S448x128_S16x10242x128_2_0_01_1_n_n_wf
def gather_S16x10242x128_S71694x1_S16x71694x128_02_1_n_n_1_1_161128 : GatherDims S16x10242x128 S71694x1 S16x71694x128 where
  offsetDims := [0, 2]
  collapsedSliceDims := [1]
  operandBatchingDims := []
  startIndicesBatchingDims := []
  startIndexMap := [1]
  indexVectorDim := 1
  sliceSizes := ![16, 1, 128]
  wf := gather_S16x10242x128_S71694x1_S16x71694x128_02_1_n_n_1_1_161128_wf
def dot_S16x10242x896_S896x128_S16x10242x128_2_0_01_1_n_n : DotDims S16x10242x896 S896x128 S16x10242x128 where
  lhsContracting := [2]
  rhsContracting := [0]
  lhsNonContracting := [0, 1]
  rhsNonContracting := [1]
  lhsBatch := []
  rhsBatch := []
  wf := dot_S16x10242x896_S896x128_S16x10242x128_2_0_01_1_n_n_wf

class Facts : Prop extends Facts₀ where

variable [Facts]
-- ==== Proof.Ranges.lean ====
/-
  What the precondition says about the two index tables, in the form the gathers use it.

  Both programs turn an index word `w` into `w' = w + n` when `w < 0` (signed) and `w` otherwise, `n` the extent of the
  indexed axis; the kernel's `jnp.take` then keeps a gathered row only where `0 ≤ w' ≤ n − 1`. The precondition says
  `−n ≤ w < n` of every entry of each table (its last two conjuncts, each a `jnp.all`), and under that the kept-row bit
  is set: a negative `w ≥ −n` wraps to `0 ≤ w + n < n` with no overflow, a non-negative `w < n` stays.
-/
import proofs.«405148_j26792005992604_1_alg».proof.Pre_finite_inputs
import Idealize.ShloMosaic.Lib.ReduceAll
import Idealize.ShloMosaic.Lib.StableHlo.Predicate

noncomputable section

namespace Cert.Ranges

open Idealize.ShloMosaic

/-- An index word wrapped once by the axis extent `n` when it is negative (what `x[idx]` and `jnp.take` both do first). -/
def wrap (n w : BitVec 32) : BitVec 32 := Scalar.select (IntOp.cmpi .slt w 0#32) (IntOp.addi w n) w

/-- The bit `0 ≤ w ≤ hi`, signed: the row `jnp.take` keeps. -/
def inb (hi w : BitVec 32) : BitVec 1 := IntOp.andi (IntOp.cmpi .sge w 0#32) (IntOp.cmpi .sle w hi)

/-- A 32-bit sum whose signed value stays inside `[−2³¹, 2³¹)` reads, signed, as the sum of the signed readings:
    the balanced remainder mod 2³² of a number already in that range is the number. -/
theorem toInt_addi_of_bounds (w n : BitVec 32) (hlo : -2147483648 ≤ w.toInt + n.toInt)
    (hhi : w.toInt + n.toInt < 2147483648) : (IntOp.addi w n).toInt = w.toInt + n.toInt := by
  unfold IntOp.addi
  rw [BitVec.toInt_add]
  exact Int.bmod_eq_of_le_mul_two (by omega) (by omega)

/-- A negative word wraps to the word plus the extent. -/
theorem wrap_of_neg (n w : BitVec 32) (hn : w.toInt < 0) : wrap n w = IntOp.addi w n := by
  have hc : IntOp.cmpi .slt w 0#32 = 1 := by
    show _ = 1#1
    rw [IntOp.cmpi_slt, show (0#32 : BitVec 32).toInt = 0 from by decide]; exact hn
  unfold wrap Scalar.select
  rw [if_pos hc]

/-- A non-negative word wraps to itself. -/
theorem wrap_of_nonneg (n w : BitVec 32) (hn : ¬ w.toInt < 0) : wrap n w = w := by
  have hc : ¬ IntOp.cmpi .slt w 0#32 = 1 := by
    show ¬ _ = 1#1
    rw [IntOp.cmpi_slt, show (0#32 : BitVec 32).toInt = 0 from by decide]; exact hn
  unfold wrap Scalar.select
  rw [if_neg hc]

/-- The kept-row bit is 1 exactly when the signed reading lies in `[0, hi]`. -/
theorem inb_eq_one (hi w : BitVec 32) : inb hi w = 1#1 ↔ 0 ≤ w.toInt ∧ w.toInt ≤ hi.toInt := by
  unfold inb
  rw [IntOp.andi_eq_one, IntOp.cmpi_sge, IntOp.cmpi_sle, show (0#32 : BitVec 32).toInt = 0 from by decide]

/-- The arithmetic for any extent `k` with `0 < k ≤ 2³⁰`: a word with `−k ≤ w < k` wraps into `[0, k − 1]`.
    If `w < 0` then `0 ≤ w + k < k`, and the sum does not leave the signed range, so it is the 32-bit sum's signed
    reading; if `w ≥ 0` the word is unchanged and `w ≤ k − 1`. -/
theorem inb_wrap_of_range (n hi w : BitVec 32) (k : Int) (hn : n.toInt = k) (hhi : hi.toInt = k - 1)
    (hk0 : 0 < k) (hk : k ≤ 1073741824) (h1 : -k ≤ w.toInt) (h2 : w.toInt < k) : inb hi (wrap n w) = 1#1 := by
  rw [inb_eq_one, hhi]
  by_cases hneg : w.toInt < 0
  · rw [wrap_of_neg _ _ hneg, toInt_addi_of_bounds w n (by rw [hn]; omega) (by rw [hn]; omega), hn]
    omega
  · rw [wrap_of_nonneg _ _ hneg]
    omega

/-- The arithmetic: a word in `[−n, n)` wraps into `[0, n − 1]`, for the two extents of this program. -/
theorem inb_wrap_40962 (w : BitVec 32) (h1 : IntOp.cmpi .sge w 4294926334#32 = 1#1) (h2 : IntOp.cmpi .slt w 40962#32 = 1#1) :
    inb 40961#32 (wrap 40962#32 w) = 1#1 := by
  rw [IntOp.cmpi_sge, show (4294926334#32 : BitVec 32).toInt = -40962 from by decide] at h1
  rw [IntOp.cmpi_slt, show (40962#32 : BitVec 32).toInt = 40962 from by decide] at h2
  exact inb_wrap_of_range 40962#32 40961#32 w 40962 (by decide) (by decide) (by omega) (by omega) h1 h2

theorem inb_wrap_10242 (w : BitVec 32) (h1 : IntOp.cmpi .sge w 4294957054#32 = 1#1) (h2 : IntOp.cmpi .slt w 10242#32 = 1#1) :
    inb 10241#32 (wrap 10242#32 w) = 1#1 := by
  rw [IntOp.cmpi_sge, show (4294957054#32 : BitVec 32).toInt = -10242 from by decide] at h1
  rw [IntOp.cmpi_slt, show (10242#32 : BitVec 32).toInt = 10242 from by decide] at h2
  exact inb_wrap_of_range 10242#32 10241#32 w 10242 (by decide) (by decide) (by omega) (by omega) h1 h2

variable [Cert.Pre_finite_inputs.Facts] {F : FTy → Type} [FloatOps F]

/-- One printed range test read at an entry. The test is the `and`-reduction, over the whole table and from the constant
    1, of `lo ≤ a < hi` (signed), the two bounds scalars broadcast over the table. If the reduction is 1, every entry that
    reduces into the one result index passed, i.e. every entry; there the two compares are pointwise and a broadcast scalar
    reads as the scalar, so both compares of the entry with the bounds are 1. -/
theorem range_at (a : IVec Cert.Pre_finite_inputs.S71694 32) (lo hi : BitVec 32) (j : Cert.Pre_finite_inputs.S_.Idx)
    (e : Host.reduce IntOp.andi
        (andi
          (cmpi .sge a (broadcastInDim Cert.Pre_finite_inputs.S71694 ![] Cert.Pre_finite_inputs.Facts.bcast_S_S71694
            (constantI Cert.Pre_finite_inputs.S_ 32 lo)))
          (cmpi .slt a (broadcastInDim Cert.Pre_finite_inputs.S71694 ![] Cert.Pre_finite_inputs.Facts.bcast_S_S71694
            (constantI Cert.Pre_finite_inputs.S_ 32 hi))))
        (constantI Cert.Pre_finite_inputs.S_ 1 1#1) Cert.Pre_finite_inputs.Facts.reducesTo_S71694_S_d0
        Cert.Pre_finite_inputs.Facts.h_S_ j = 1#1)
    (p : Cert.Pre_finite_inputs.S71694.Idx) :
    IntOp.cmpi .sge (a p) lo = 1#1 ∧ IntOp.cmpi .slt (a p) hi = 1#1 := by
  have e' := Host.reduce_andi_eq_one _ _ _ _ j e p (funext fun d => d.elim0)
  dsimp only [andi, cmpi] at e'
  rw [StableHlo.Predicate.bcast_scalar _ Cert.Pre_finite_inputs.Facts.h_S_,
    StableHlo.Predicate.bcast_scalar _ Cert.Pre_finite_inputs.Facts.h_S_] at e'
  dsimp only [constantI] at e'
  exact IntOp.andi_eq_one.1 e'

/-- Every entry of the pooling table, wrapped, is a row of the 40962-vertex axis. -/
theorem pool_inb (a0 : FVec F Cert.Pre_finite_inputs.S16x64x40962 .f32) (a1 a2 : IVec Cert.Pre_finite_inputs.S71694 32)
    (a3 : FVec F Cert.Pre_finite_inputs.S448x128 .f32) (a4 a5 a6 : FVec F Cert.Pre_finite_inputs.S128 .f32)
    (a7 : FVec F Cert.Pre_finite_inputs.S896x128 .f32) (a8 a9 a10 : FVec F Cert.Pre_finite_inputs.S128 .f32)
    (h : Cert.Pre_finite_inputs.fn (F := F) a0 a1 a2 a3 a4 a5 a6 a7 a8 a9 a10 = fun _ => 1#1)
    (p : Cert.Pre_finite_inputs.S71694.Idx) :
    inb 40961#32 (wrap 40962#32 (a1 p)) = 1#1 := by
  -- The function's value at its one index is `and (and (the earlier conjuncts) (pool test)) (neighbour test)`.
  have h0 := congrFun h (fun d => d.elim0)
  dsimp only [Cert.Pre_finite_inputs.fn, Cert.Pre_finite_inputs.fn_part1, Cert.Pre_finite_inputs.fn_part2,
    Cert.Pre_finite_inputs.fn_part3, andi] at h0
  obtain ⟨h12, -⟩ := IntOp.andi_eq_one.1 h0
  obtain ⟨-, h2⟩ := IntOp.andi_eq_one.1 h12
  obtain ⟨e1, e2⟩ := range_at a1 _ _ _ h2 p
  exact inb_wrap_40962 _ e1 e2

/-- Every entry of the neighbour table, wrapped, is a row of the 10242-vertex axis. -/
theorem neigh_inb (a0 : FVec F Cert.Pre_finite_inputs.S16x64x40962 .f32) (a1 a2 : IVec Cert.Pre_finite_inputs.S71694 32)
    (a3 : FVec F Cert.Pre_finite_inputs.S448x128 .f32) (a4 a5 a6 : FVec F Cert.Pre_finite_inputs.S128 .f32)
    (a7 : FVec F Cert.Pre_finite_inputs.S896x128 .f32) (a8 a9 a10 : FVec F Cert.Pre_finite_inputs.S128 .f32)
    (h : Cert.Pre_finite_inputs.fn (F := F) a0 a1 a2 a3 a4 a5 a6 a7 a8 a9 a10 = fun _ => 1#1)
    (p : Cert.Pre_finite_inputs.S71694.Idx) :
    inb 10241#32 (wrap 10242#32 (a2 p)) = 1#1 := by
  -- The neighbour test is the last conjunct of the same nest.
  have h0 := congrFun h (fun d => d.elim0)
  dsimp only [Cert.Pre_finite_inputs.fn, Cert.Pre_finite_inputs.fn_part1, Cert.Pre_finite_inputs.fn_part2,
    Cert.Pre_finite_inputs.fn_part3, andi] at h0
  obtain ⟨-, h3⟩ := IntOp.andi_eq_one.1 h0
  obtain ⟨e1, e2⟩ := range_at a2 _ _ _ h3 p
  exact inb_wrap_10242 _ e1 e2

end Cert.Ranges

end
-- ==== Proof.TakeMask.lean ====
/-
  The row mask of `jnp.take`, and why it is all ones on indices in range.

  `jnp.take(h, idx, axis=1)` prints as: wrap each index once (`wrapped`), lay the wrapped indices out as the [n, 1]
  column of start indices (`idxCol`), gather, and keep a gathered row only where its index `w'` satisfies
  `0 ≤ w' ≤ hi` — the bit `keep`, an `and` of two signed compares reduced over the column's unit axis — filling the
  other rows with NaN. When every wrapped index is in `[0, hi]` the mask is all ones and the `select` is its gathered
  branch, whatever the fill.
-/
import proofs.«405148_j26792005992604_1_alg».proof.KernelIdeal
import proofs.«405148_j26792005992604_1_alg».proof.Proof.Ranges
import Idealize.ShloMosaic.Lib.ReduceAll
import Idealize.ShloMosaic.Lib.ValueIdx
import Idealize.ShloMosaic.Lib.Pipeline.Value
import Idealize.ShloMosaic.Lib.StableHlo.Predicate

noncomputable section

namespace Cert.TakeMask

open Idealize.ShloMosaic Cert.KernelIdeal

variable (hb0 : S_.BroadcastsInDim S71694 (![] : Fin 0 → Fin S71694.rank))
  (hbc : S71694.BroadcastsInDim S71694x1 (![0] : Fin 1 → Fin S71694x1.rank))
  (hz : S_.BroadcastsInDim S71694x1 (![] : Fin 0 → Fin S71694x1.rank))
  (h1 : S1.BroadcastsInDim S1x1 (![1] : Fin 1 → Fin S1x1.rank))
  (h11 : S1x1.BroadcastsInDim S71694x1 (![0, 1] : Fin 2 → Fin S71694x1.rank))
  (hr : S71694x1.ReducesTo [1] S71694) (h0 : 0 < S_.numel)

/-- The index table with each negative entry wrapped once by the extent `n`. -/
def wrapped (n : BitVec 32) (a : IVec S71694 32) : IVec S71694 32 :=
  select (cmpi .slt a (broadcastInDim S71694 ![] hb0 (constantI S_ 32 0#32)))
    (addi a (broadcastInDim S71694 ![] hb0 (constantI S_ 32 n))) a

/-- The wrapped indices as the [71694, 1] column of start indices the gather takes. -/
def idxCol (n : BitVec 32) (a : IVec S71694 32) : IVec S71694x1 32 :=
  broadcastInDim S71694x1 ![0] hbc (wrapped hb0 n a)

/-- The kept-row bit per table entry: `0 ≤ w' ≤ hi` on the wrapped index, `and`-reduced over the column's unit axis. -/
def keep (n hi : BitVec 32) (a : IVec S71694 32) : IVec S71694 1 :=
  Host.reduce IntOp.andi
    (andi (cmpi .sge (idxCol hb0 hbc n a) (broadcastInDim S71694x1 ![] hz (constantI S_ 32 0#32)))
      (cmpi .sle (idxCol hb0 hbc n a)
        (broadcastInDim S71694x1 ![0, 1] h11 (broadcastInDim S1x1 ![1] h1 (constantI S1 32 hi)))))
    (constantI S_ 1 1#1) hr h0

/-- A left fold by `and` from 1 over a list all of whose entries read 1 is 1. -/
theorem foldl_andi_ones {ι : Type} (f : ι → BitVec 1) :
    ∀ l : List ι, (∀ i ∈ l, f i = 1#1) → l.foldl (fun r i => IntOp.andi r (f i)) 1#1 = 1#1
  | [], _ => rfl
  | i :: l, hl => by
    rw [List.foldl_cons, hl i List.mem_cons_self, show IntOp.andi 1#1 1#1 = 1#1 from by decide]
    exact foldl_andi_ones f l fun k hk => hl k (List.mem_cons_of_mem _ hk)

/-- A reduction by `and` from the constant 1, over any axes, of an array that is 1 everywhere is 1 everywhere: at each
    result index it is a left fold, from 1, over operand entries that are all 1. -/
theorem reduce_andi_ones {s t u : Shape} {axes : List (Fin s.rank)} (x : s.Idx → BitVec 1) (hst : s.ReducesTo axes t)
    (hu : 0 < u.numel) (hx : ∀ i, x i = 1#1) (j : t.Idx) :
    Host.reduce IntOp.andi x (constantI u 1 1#1) hst hu j = 1#1 := by
  rw [Host.reduce_eq_foldl]
  exact foldl_andi_ones x _ fun i _ => hx i

/-- With every wrapped index in `[0, hi]`, every entry is kept. -/
theorem keep_eq_ones (n hi : BitVec 32) (a : IVec S71694 32)
    (h : ∀ p : S71694.Idx, Cert.Ranges.inb hi (Cert.Ranges.wrap n (a p)) = 1#1) :
    keep hb0 hbc hz h1 h11 hr h0 n hi a = fun _ => 1#1 := by
  funext p
  unfold keep
  refine reduce_andi_ones _ hr h0 (fun i => ?_) p
  -- The entry at `i`: the two compares are pointwise, the column reads the wrapped table at the row `i` names, and a
  -- broadcast constant reads the constant; so the entry is the kept-row bit of that wrapped table entry.
  dsimp only [andi, cmpi, idxCol, wrapped, select, addi, broadcastInDim, constantI]
  exact h _

/-- So the `select` on the mask, broadcast along any result shape `T`, is its gathered branch. -/
theorem select_keep {α : Type} {T : Shape} (dims : Fin 1 → Fin T.rank) (hT : S71694.BroadcastsInDim T dims)
    (n hi : BitVec 32) (a : IVec S71694 32)
    (h : ∀ p : S71694.Idx, Cert.Ranges.inb hi (Cert.Ranges.wrap n (a p)) = 1#1) (X Y : T.Idx → α) :
    select (broadcastInDim T dims hT (keep hb0 hbc hz h1 h11 hr h0 n hi a)) X Y = X := by
  rw [keep_eq_ones hb0 hbc hz h1 h11 hr h0 n hi a h]
  funext j
  -- A broadcast of the all-ones vector reads 1 at every index, and a `select` on the bit 1 is its first branch.
  exact ValueIdx.select_one _ _

end Cert.TakeMask

end
-- ==== Proof.KernelHost.lean ====
/-
  The host operations of the kernel's program, as named functions of the argument arrays.

  Around its two pallas_calls the program does what the reference does on the host, with `jnp.take` in the place of
  indexing: transpose the input to (sample, vertex, channel); TAKE the rows of the pooling table and average them in
  groups of seven (`pooled`); TAKE the rows of the neighbour table and lay each vertex's seven rows out as one row of
  7·C features (`tab1`, the first region's input, stored as bf16); after the first region the same take and layout on
  its output (`tab2`, the second region's input); after the second region the transpose back. A take is a gather of the
  wrapped index column under the kept-row mask of `TakeMask`, filled with NaN where a row is not kept.
  Each function is the composed term the program's segments leave in the named buffer (`*_eq`: by running the fold).
-/
import proofs.«405148_j26792005992604_1_alg».proof.Proof.Gen.KernelIdeal.Frame
import proofs.«405148_j26792005992604_1_alg».proof.Proof.TakeMask
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.ShloMosaic.StableHlo Idealize.SL.Sem

variable {F : FTy → Type} [FloatOps F]

/-- The wrapped index column of a table into an axis of extent `n`. -/
abbrev col (n : BitVec 32) (a : IVec S71694 32) : IVec S71694x1 32 :=
  Cert.TakeMask.idxCol bcast_S_S71694 bcast_S71694_S71694x1_0 n a

/-- The kept-row mask of a table into an axis of extent `n = hi + 1`. -/
abbrev kept (n hi : BitVec 32) (a : IVec S71694 32) : IVec S71694 1 :=
  Cert.TakeMask.keep bcast_S_S71694 bcast_S71694_S71694x1_0 bcast_S_S71694x1 bcast_S1_S1x1_1 bcast_S1x1_S71694x1_0_1
    reducesTo_S71694x1_S71694_d1 h_S_ n hi a

/-- `jnp.take` of the transposed input's vertex rows at the pooling table. -/
def take0 (a0 : FVec F S16x64x40962 .f32) (a1 : IVec S71694 32) : FVec F S16x71694x64 .f32 :=
  select (broadcastInDim S16x71694x64 ![1] bcast_S71694_S16x71694x64_1 (kept 40962#32 40961#32 a1))
    (Host.gather gather_S16x40962x64_S71694x1_S16x71694x64_02_1_n_n_1_1_16164
      (transpose S16x40962x64 [0, 2, 1] a0 transposes_S16x64x40962_S16x40962x64_0_2_1) (col 40962#32 a1))
    (broadcastInDim S16x71694x64 ![] bcast_S_S16x71694x64 (constant S_ .f32 0x7FC00000#32))

/-- The mean over each pooled vertex's seven taken rows. -/
def pooled (a0 : FVec F S16x64x40962 .f32) (a1 : IVec S71694 32) : FVec F S16x10242x64 .f32 :=
  Host.divf
    (Host.reduceAdd (shapeCast S16x10242x7x64 (take0 a0 a1) shapeCasts_S16x71694x64_S16x10242x7x64)
      (constant S_ .f32 0x00000000#32) reducesTo_S16x10242x7x64_S16x10242x64_d2 h_S_)
    (broadcastInDim S16x10242x64 ![] bcast_S_S16x10242x64 (constant S_ .f32 0x40E00000#32))

/-- `jnp.take` of a 64-channel array's pooled-vertex rows at the neighbour table. -/
def take1 (h : FVec F S16x10242x64 .f32) (a2 : IVec S71694 32) : FVec F S16x71694x64 .f32 :=
  select (broadcastInDim S16x71694x64 ![1] bcast_S71694_S16x71694x64_1 (kept 10242#32 10241#32 a2))
    (Host.gather gather_S16x10242x64_S71694x1_S16x71694x64_02_1_n_n_1_1_16164 h (col 10242#32 a2))
    (broadcastInDim S16x71694x64 ![] bcast_S_S16x71694x64 (constant S_ .f32 0x7FC00000#32))

/-- The first region's input: each vertex's seven taken rows as one row of 448 features. -/
def tab1 (a0 : FVec F S16x64x40962 .f32) (a1 a2 : IVec S71694 32) : FVec F S16x10242x448 .bf16 :=
  truncf .bf16 (shapeCast S16x10242x448 (take1 (pooled a0 a1) a2) shapeCasts_S16x71694x64_S16x10242x448) bitsLt_bf16_f32

/-- `jnp.take` of a 128-channel array's pooled-vertex rows at the neighbour table. -/
def take2 (h : FVec F S16x10242x128 .f32) (a2 : IVec S71694 32) : FVec F S16x71694x128 .f32 :=
  select (broadcastInDim S16x71694x128 ![1] bcast_S71694_S16x71694x128_1 (kept 10242#32 10241#32 a2))
    (Host.gather gather_S16x10242x128_S71694x1_S16x71694x128_02_1_n_n_1_1_161128 h (col 10242#32 a2))
    (broadcastInDim S16x71694x128 ![] bcast_S_S16x71694x128 (constant S_ .f32 0x7FC00000#32))

/-- The second region's input: each vertex's seven taken rows as one row of 896 features. -/
def tab2 (h : FVec F S16x10242x128 .f32) (a2 : IVec S71694 32) : FVec F S16x10242x896 .bf16 :=
  truncf .bf16 (shapeCast S16x10242x896 (take2 h a2) shapeCasts_S16x71694x128_S16x10242x896) bitsLt_bf16_f32

variable (m : (ℓ : Loc nD τ sig) → Buf (Elt F) ℓ) (ρ : Dev nD → PrngReg)

set_option maxHeartbeats 4000000 in
/-- At the first region's entry the table buffer holds `tab1` of the launch contents. -/
theorem V5_v8 (c : Dev nD) :
    V5 m ρ c main_v8 = tab1 (F := F) (m ((c : Thread nD τ).loc main_arg0)) (m ((c : Thread nD τ).loc main_arg1)) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v8) = _
  after_results_simp
  simp only [TRef.ofBuf, TRef.toBuf, cast_eq]
  rfl

/-- A launch argument no segment writes is still the launch memory's at the first region's entry. -/
theorem V5_arg (c : Dev nD) :
    V5 m ρ c main_arg2 = m ((c : Thread nD τ).loc main_arg2)
    ∧ V5 m ρ c main_arg4 = m ((c : Thread nD τ).loc main_arg4)
    ∧ V5 m ρ c main_arg5 = m ((c : Thread nD τ).loc main_arg5)
    ∧ V5 m ρ c main_arg6 = m ((c : Thread nD τ).loc main_arg6)
    ∧ V5 m ρ c main_arg7 = m ((c : Thread nD τ).loc main_arg7)
    ∧ V5 m ρ c main_arg8 = m ((c : Thread nD τ).loc main_arg8)
    ∧ V5 m ρ c main_arg9 = m ((c : Thread nD τ).loc main_arg9)
    ∧ V5 m ρ c main_arg10 = m ((c : Thread nD τ).loc main_arg10) := by
  refine ⟨?_, ?_, ?_, ?_, ?_, ?_, ?_, ?_⟩ <;>
  · show StableHlo.after hostOps0_4 (StableHlo.after hostOps0_3 (StableHlo.after hostOps0_2 (StableHlo.after hostOps0_1
      (StableHlo.after hostOps0 (W0 m ρ c))))) (Proc.devRef .tc _) = _
    after_results_simp

/-- The first region's weight window holds W1 in bf16. -/
theorem V5_v9 (c : Dev nD) :
    V5 m ρ c main_v9 = truncf .bf16 (m ((c : Thread nD τ).loc main_arg3) : FVec F S448x128 .f32) bitsLt_bf16_f32 := by
  show StableHlo.after hostOps0_4 (StableHlo.after hostOps0_3 (StableHlo.after hostOps0_2 (StableHlo.after hostOps0_1
    (StableHlo.after hostOps0 (W0 m ρ c))))) (Proc.devRef .tc main_v9) = _
  after_results_simp

/-- The first region's output array after its run is what its write-backs leave. -/
theorem V6_v10 (c : Dev nD) : V6 m ρ c main_v10 = (dat0 (V5 m ρ) c).arrAt 5 cfg0.N :=
  (hF0 m ρ c 5).symm

/-- The first region leaves every buffer but its output array as it found it. -/
theorem V6_arg (c : Dev nD) :
    V6 m ρ c main_arg2 = m ((c : Thread nD τ).loc main_arg2)
    ∧ V6 m ρ c main_arg7 = m ((c : Thread nD τ).loc main_arg7)
    ∧ V6 m ρ c main_arg8 = m ((c : Thread nD τ).loc main_arg8)
    ∧ V6 m ρ c main_arg9 = m ((c : Thread nD τ).loc main_arg9)
    ∧ V6 m ρ c main_arg10 = m ((c : Thread nD τ).loc main_arg10) := by
  obtain ⟨h2, -, -, -, h7, h8, h9, h10⟩ := V5_arg m ρ c
  exact ⟨(W6_of_ne m ρ c main_arg2 (by decide)).trans h2, (W6_of_ne m ρ c main_arg7 (by decide)).trans h7,
    (W6_of_ne m ρ c main_arg8 (by decide)).trans h8, (W6_of_ne m ρ c main_arg9 (by decide)).trans h9,
    (W6_of_ne m ρ c main_arg10 (by decide)).trans h10⟩

set_option maxHeartbeats 4000000 in
/-- At the second region's entry the table buffer holds `tab2` of the first region's output and the neighbour table. -/
theorem V8_v13 (c : Dev nD) :
    V8 m ρ c main_v13 = tab2 (F := F) (V6 m ρ c main_v10) (m ((c : Thread nD τ).loc main_arg2)) := by
  rw [← (V6_arg m ρ c).1]
  show StableHlo.after hostOps1_1 (StableHlo.after hostOps1 (W6 m ρ c)) (Proc.devRef .tc main_v13) = _
  after_results_simp
  simp only [TRef.ofBuf, TRef.toBuf, cast_eq]
  rfl

/-- The second region's weight window holds W2 in bf16, and its three vectors are the launch arguments. -/
theorem V8_rest (c : Dev nD) :
    V8 m ρ c main_v14 = truncf .bf16 (m ((c : Thread nD τ).loc main_arg7) : FVec F S896x128 .f32) bitsLt_bf16_f32
    ∧ V8 m ρ c main_arg8 = m ((c : Thread nD τ).loc main_arg8)
    ∧ V8 m ρ c main_arg9 = m ((c : Thread nD τ).loc main_arg9)
    ∧ V8 m ρ c main_arg10 = m ((c : Thread nD τ).loc main_arg10) := by
  obtain ⟨-, h7, h8, h9, h10⟩ := V6_arg m ρ c
  refine ⟨?_, ?_, ?_, ?_⟩
  · rw [← h7]
    show StableHlo.after hostOps1_1 (StableHlo.after hostOps1 (W6 m ρ c)) (Proc.devRef .tc main_v14) = _
    after_results_simp
  · rw [← h8]
    show StableHlo.after hostOps1_1 (StableHlo.after hostOps1 (W6 m ρ c)) (Proc.devRef .tc main_arg8) = _
    after_results_simp
  · rw [← h9]
    show StableHlo.after hostOps1_1 (StableHlo.after hostOps1 (W6 m ρ c)) (Proc.devRef .tc main_arg9) = _
    after_results_simp
  · rw [← h10]
    show StableHlo.after hostOps1_1 (StableHlo.after hostOps1 (W6 m ρ c)) (Proc.devRef .tc main_arg10) = _
    after_results_simp

/-- The second region's output array after its run is what its write-backs leave. -/
theorem V9_v15 (c : Dev nD) : V9 m ρ c main_v15 = (dat1 (V8 m ρ) c).arrAt 5 cfg1.N :=
  (hF1 m ρ c 5).symm

/-- The program's result is the second region's output with its last two axes exchanged. -/
theorem W10_v16 (c : Dev nD) :
    W10 m ρ c (Proc.devRef .tc main_v16)
      = transpose S16x128x10242 [0, 2, 1] (V9 m ρ c main_v15 : FVec F S16x10242x128 .f32) transposes_S16x10242x128_S16x128x10242_0_2_1 := by
  show StableHlo.after hostOps2 (W9 m ρ c) (Proc.devRef .tc main_v16) = _
  after_results_simp

end Cert.KernelIdeal.HostV

end
-- ==== Proof.Spec.lean ====
/-
  What both programs compute for ONE sample, index by index, on the extended reals.

  A sample is a table `g v k` of `K` gathered features at each of the 10242 pooled vertices. The stage is
    * the neighbourhood convolution written as a matrix product with a bias, `y v o = (∑ k, g v k · W k o) + bias o`;
    * BatchNorm over the VERTEX axis, per output channel `o`: the mean `μ o = (∑ v, y v o) / 10242`, the biased variance
      `σ² o = (∑ v, (y v o − μ o)²) / 10242`, and `(y v o − μ o) · rsqrt (σ² o + ε) · γ o + β o`;
    * a leaky ReLU of slope 0.2: the value itself where it is `≥ 0`, `0.2` times it elsewhere.
  The three float literals (10242, ε = 1e-5, 0.2) stay the f32 words both programs print: the same word on both sides
  is never evaluated. Sums are `Finset` sums over `Fin`, so their order is no part of the statement.
-/
import Idealize.ShloMosaic.PureOps.Ideal
import Idealize.ShloMosaic.Lib.ValueIdx

noncomputable section

namespace Cert.Spec

open Idealize.ShloMosaic

/-- The vertex count 10242 as the f32 word both programs divide the two sums by. -/
def nV : EReal := Ideal.ofBits .f32 0x46200800#32
/-- BatchNorm's ε: the f32 nearest 1e-5. -/
def eps : EReal := Ideal.ofBits .f32 0x3727C5AC#32
/-- The leaky ReLU's slope: the f32 nearest 0.2. -/
def slope : EReal := Ideal.ofBits .f32 0x3E4CCCCD#32

variable {K : ℕ}

/-- The convolution as a matrix product with bias. -/
def lin (g : Fin 10242 → Fin K → EReal) (W : Fin K → Fin 128 → EReal) (bias : Fin 128 → EReal)
    (v : Fin 10242) (o : Fin 128) : EReal :=
  (∑ k : Fin K, g v k * W k o) + bias o

/-- The mean over the vertices, per channel. -/
def mean (y : Fin 10242 → Fin 128 → EReal) (o : Fin 128) : EReal :=
  Ideal.div (∑ v : Fin 10242, y v o) nV

/-- The deviation from the channel's mean. -/
def dev (y : Fin 10242 → Fin 128 → EReal) (v : Fin 10242) (o : Fin 128) : EReal :=
  y v o - mean y o

/-- The biased variance over the vertices, per channel. -/
def var (y : Fin 10242 → Fin 128 → EReal) (o : Fin 128) : EReal :=
  Ideal.div (∑ v : Fin 10242, dev y v o * dev y v o) nV

/-- BatchNorm with scale `γ` and shift `β`. -/
def norm (y : Fin 10242 → Fin 128 → EReal) (γ β : Fin 128 → EReal) (v : Fin 10242) (o : Fin 128) : EReal :=
  dev y v o * Ideal.rsqrt (var y o + eps) * γ o + β o

/-- The leaky ReLU. -/
def lrelu (a : EReal) : EReal :=
  Scalar.select (Ideal.cmp .oge a 0) a (slope * a)

/-- One stage: convolution, BatchNorm, leaky ReLU. -/
def stage (g : Fin 10242 → Fin K → EReal) (W : Fin K → Fin 128 → EReal) (bias γ β : Fin 128 → EReal)
    (v : Fin 10242) (o : Fin 128) : EReal :=
  lrelu (norm (lin g W bias) γ β v o)

end Cert.Spec

end
-- ==== Proof.KernelStage.lean ====
/-
  The kernel body's arithmetic, read at an index.

  Each of the two pallas_calls runs the same body on one sample's block: the block of gathered features `x0` (one sample,
  10242 vertices, K features), the weight `x1` (K × 128) and the three per-channel vectors. What it stores at vertex `v`,
  channel `o` of its output block is `Spec.stage` of those five, at `(v, o)`: the matrix product is a sum over the contracted
  axis, each lane reduction a sum over the vertices, the [1,128] rows are broadcast back along the vertices, and every
  change of float format is the identity on the extended reals.
-/
import proofs.«405148_j26792005992604_1_alg».proof.Proof.Gen.KernelIdeal.Skeleton
import proofs.«405148_j26792005992604_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stage

open Idealize.ShloMosaic Cert.KernelIdeal Cert.KernelIdeal.Gen ValueIdx

/-! ## Layout and reduction steps read at coordinates -/

/-- A per-channel vector, viewed as one row and repeated along the vertices, reads the channel's entry. -/
theorem chanRow_apply (x : FVec Ideal S128 .f32) (v : Fin 10242) (o : Fin 128) :
    broadcastTo S10242x128 (shapeCast S1x128 x shapeCasts_S128_S1x128) broadcasts_S1x128_S10242x128 (ix2 v o)
      = x (ix1 o) :=
  (broadcastTo_1b_ab_apply _ _ v o).trans (shapeCast_a_1a_apply x _ 0 o)

/-- The sum over the vertex axis, read at a channel: the sum of that channel's column. -/
theorem vsum_apply (y : FVec Ideal S10242x128 .f32) (hφ : FKind.Formats .f32)
    (hacc : (0x00000000#32 : BitVec 32) = 0x00000000#32) (o : Fin 128) :
    multiReduction (F := Ideal) .add [0] S128 y 0x00000000#32 reduces_S10242x128_S128 hφ hacc (ix1 o)
      = ∑ v : Fin 10242, y (ix2 v o) := by
  refine (Ideal.multiReduction_add_single y 0x00000000#32 reduces_S10242x128_S128 hφ hacc (ix1 o)).trans ?_
  show ∑ k : Fin 10242, _ = _
  refine Finset.sum_congr rfl fun k _ => congrArg y ?_
  funext a
  match a with
  | ⟨0, _⟩ => rfl
  | ⟨1, _⟩ => rfl

/-- A column sum kept as a one-row matrix and divided by a splat scalar: at channel o, the column sum over the scalar. -/
theorem rowStat_apply (y : FVec Ideal S10242x128 .f32) (hφ : FKind.Formats .f32)
    (hacc : (0x00000000#32 : BitVec 32) = 0x00000000#32) (c : Ideal .f32) (u : Fin 1) (o : Fin 128) :
    divf (shapeCast S1x128 (multiReduction (F := Ideal) .add [0] S128 y 0x00000000#32 reduces_S10242x128_S128 hφ hacc)
        shapeCasts_S128_S1x128) (broadcast S1x128 c) (ix2 u o)
      = Ideal.div (∑ v : Fin 10242, y (ix2 v o)) c := by
  rw [divf_apply, broadcast_apply, shapeCast_a_1a_apply, vsum_apply]

/-! ## BatchNorm over the vertices and the leaky ReLU, as the kernel body writes them -/

/-- The per-channel mean, as a one-row matrix: the column sums over the word 10242. -/
def kMean (y : FVec Ideal S10242x128 .f32) : FVec Ideal S1x128 .f32 :=
  divf (shapeCast S1x128 (multiReduction (F := Ideal) .add [0] S128 y 0x00000000#32 reduces_S10242x128_S128 (.inl rfl) rfl)
      shapeCasts_S128_S1x128) (broadcast S1x128 (Scalar.ofBits (F := Ideal) .f32 0x46200800#32))

theorem kMean_apply (y : FVec Ideal S10242x128 .f32) (u : Fin 1) (o : Fin 128) :
    kMean y (ix2 u o) = Cert.Spec.mean (fun v o => y (ix2 v o)) o :=
  rowStat_apply y _ _ _ u o

/-- The deviation from the mean: the mean's row broadcast back along the vertices and subtracted. -/
def kDev (y : FVec Ideal S10242x128 .f32) : FVec Ideal S10242x128 .f32 :=
  subf y (broadcastTo S10242x128 (kMean y) broadcasts_S1x128_S10242x128)

theorem kDev_apply (y : FVec Ideal S10242x128 .f32) (v : Fin 10242) (o : Fin 128) :
    kDev y (ix2 v o) = Cert.Spec.dev (fun v o => y (ix2 v o)) v o := by
  unfold kDev Cert.Spec.dev
  rw [subf_apply, broadcastTo_1b_ab_apply, kMean_apply]

/-- The biased variance, as a one-row matrix: the column sums of the squared deviations over the word 10242. -/
def kVar (y : FVec Ideal S10242x128 .f32) : FVec Ideal S1x128 .f32 :=
  divf (shapeCast S1x128 (multiReduction (F := Ideal) .add [0] S128 (mulf (kDev y) (kDev y)) 0x00000000#32
        reduces_S10242x128_S128 (.inl rfl) rfl) shapeCasts_S128_S1x128)
    (broadcast S1x128 (Scalar.ofBits (F := Ideal) .f32 0x46200800#32))

theorem kVar_apply (y : FVec Ideal S10242x128 .f32) (u : Fin 1) (o : Fin 128) :
    kVar y (ix2 u o) = Cert.Spec.var (fun v o => y (ix2 v o)) o := by
  unfold kVar Cert.Spec.var
  refine (rowStat_apply _ _ _ _ u o).trans ?_
  refine congrArg (fun s => Ideal.div s Cert.Spec.nV) (Finset.sum_congr rfl fun v _ => ?_)
  rw [mulf_apply, kDev_apply]

/-- The normalised value: deviation times the reciprocal root of (variance + ε), times the scale row, plus the shift row. -/
def kNorm (y : FVec Ideal S10242x128 .f32) (x3 x4 : Vec Ideal S128 .f32) : FVec Ideal S10242x128 .f32 :=
  addf
    (mulf
      (mulf (kDev y)
        (broadcastTo S10242x128
          (rsqrt (addf (kVar y) (broadcast S1x128 (Scalar.ofBits (F := Ideal) .f32 0x3727C5AC#32))))
          broadcasts_S1x128_S10242x128))
      (broadcastTo S10242x128 (shapeCast S1x128 x3 shapeCasts_S128_S1x128) broadcasts_S1x128_S10242x128))
    (broadcastTo S10242x128 (shapeCast S1x128 x4 shapeCasts_S128_S1x128) broadcasts_S1x128_S10242x128)

theorem kNorm_apply (y : FVec Ideal S10242x128 .f32) (x3 x4 : Vec Ideal S128 .f32) (v : Fin 10242) (o : Fin 128) :
    kNorm y x3 x4 (ix2 v o)
      = Cert.Spec.norm (fun v o => y (ix2 v o)) (fun o => x3 (ix1 o)) (fun o => x4 (ix1 o)) v o := by
  unfold kNorm Cert.Spec.norm
  rw [addf_apply, mulf_apply, mulf_apply, chanRow_apply, chanRow_apply, kDev_apply, broadcastTo_1b_ab_apply]
  show _ * Ideal.rsqrt (kVar y (ix2 (0 : Fin 1) o) + Ideal.ofBits .f32 0x3727C5AC#32) * _ + _ = _
  rw [kVar_apply]
  rfl

/-- The leaky ReLU: the value where it is at least the zero splat, the splat 0.2 times it elsewhere. -/
def kLrelu (n : FVec Ideal S10242x128 .f32) : FVec Ideal S10242x128 .f32 :=
  select (cmpf .oge n (broadcast S10242x128 (Scalar.ofBits (F := Ideal) .f32 0x00000000#32))) n
    (mulf (broadcast S10242x128 (Scalar.ofBits (F := Ideal) .f32 0x3E4CCCCD#32)) n)

theorem kLrelu_apply (n : FVec Ideal S10242x128 .f32) (i : S10242x128.Idx) :
    kLrelu n i = Cert.Spec.lrelu (n i) := by
  show Scalar.select (Ideal.cmp .oge (n i) (Ideal.ofBits .f32 0x00000000#32)) (n i)
      (Ideal.ofBits .f32 0x3E4CCCCD#32 * n i) = _
  rw [Ideal.ofBits_zero_f32]
  rfl

/-! ## Stage 1's matrix product (448 contracted features) -/

theorem lhs0_0 (i : S10242x128.Idx) (q : dot_S10242x448_S448x128_S10242x128_1_0_0_1_n_n.contr.Idx) :
    (dot_S10242x448_S448x128_S10242x128_1_0_0_1_n_n.lhsIdx i q 0).val = (i 0).val := by
  unfold DotDims.lhsIdx
  rw [dif_neg (show ¬(0 : Fin S10242x448.rank) ∈ dot_S10242x448_S448x128_S10242x128_1_0_0_1_n_n.lhsBatch by decide),
    dif_pos (show (0 : Fin S10242x448.rank) ∈ dot_S10242x448_S448x128_S10242x128_1_0_0_1_n_n.lhsNonContracting by decide)]
  rfl
theorem lhs0_1 (i : S10242x128.Idx) (q : dot_S10242x448_S448x128_S10242x128_1_0_0_1_n_n.contr.Idx) :
    (dot_S10242x448_S448x128_S10242x128_1_0_0_1_n_n.lhsIdx i q 1).val = (q ⟨0, by decide⟩).val :=
  dot_S10242x448_S448x128_S10242x128_1_0_0_1_n_n.lhsIdx_val_of_single rfl i q
theorem rhs0_0 (i : S10242x128.Idx) (q : dot_S10242x448_S448x128_S10242x128_1_0_0_1_n_n.contr.Idx) :
    (dot_S10242x448_S448x128_S10242x128_1_0_0_1_n_n.rhsIdx i q 0).val = (q ⟨0, by decide⟩).val :=
  dot_S10242x448_S448x128_S10242x128_1_0_0_1_n_n.rhsIdx_val_of_single rfl i q
theorem rhs0_1 (i : S10242x128.Idx) (q : dot_S10242x448_S448x128_S10242x128_1_0_0_1_n_n.contr.Idx) :
    (dot_S10242x448_S448x128_S10242x128_1_0_0_1_n_n.rhsIdx i q 1).val = (i 1).val := by
  unfold DotDims.rhsIdx
  rw [dif_neg (show ¬(1 : Fin S448x128.rank) ∈ dot_S10242x448_S448x128_S10242x128_1_0_0_1_n_n.rhsBatch by decide),
    dif_pos (show (1 : Fin S448x128.rank) ∈ dot_S10242x448_S448x128_S10242x128_1_0_0_1_n_n.rhsNonContracting by decide)]
  rfl

/-- The matrix product into a zero accumulator, read at (v, o): the sum over the 448 contracted features. -/
theorem mm0_apply (a : FVec Ideal S10242x448 .bf16) (w : FVec Ideal S448x128 .bf16) (v : Fin 10242) (o : Fin 128) :
    matmul dot_S10242x448_S448x128_S10242x128_1_0_0_1_n_n none a w (constant (F := Ideal) S10242x128 .f32 0x00000000#32) (ix2 v o)
      = ∑ k : Fin 448, a (ix2 v k) * w (ix2 k o) := by
  simp only [matmul]
  rw [Ideal.matmul_constant_zero_apply,
    ← Equiv.sum_comp (contrEquiv1 dot_S10242x448_S448x128_S10242x128_1_0_0_1_n_n 448 rfl rfl).symm]
  refine Finset.sum_congr rfl fun k _ => ?_
  have hk := contrEquiv1_symm_val dot_S10242x448_S448x128_S10242x128_1_0_0_1_n_n 448 rfl rfl k
  have el : dot_S10242x448_S448x128_S10242x128_1_0_0_1_n_n.lhsIdx (ix2 v o)
      ((contrEquiv1 dot_S10242x448_S448x128_S10242x128_1_0_0_1_n_n 448 rfl rfl).symm k) = ix2 v k :=
    funext fun c => Fin.ext (by
      match c with
      | ⟨0, _⟩ => exact lhs0_0 _ _
      | ⟨1, _⟩ => exact (lhs0_1 _ _).trans hk)
  have er : dot_S10242x448_S448x128_S10242x128_1_0_0_1_n_n.rhsIdx (ix2 v o)
      ((contrEquiv1 dot_S10242x448_S448x128_S10242x128_1_0_0_1_n_n 448 rfl rfl).symm k) = ix2 k o :=
    funext fun c => Fin.ext (by
      match c with
      | ⟨0, _⟩ => exact (rhs0_0 _ _).trans hk
      | ⟨1, _⟩ => exact rhs0_1 _ _)
  rw [el, er]

/-- Stage 1's linear part as the kernel body writes it: the product into a zero accumulator plus the bias row
    broadcast along the vertices. -/
def kLin0 (x0 : FVec Ideal S1x10242x448 .bf16) (x1 : FVec Ideal S448x128 .bf16) (x2 : FVec Ideal S128 .f32) :
    FVec Ideal S10242x128 .f32 :=
  addf
    (matmul dot_S10242x448_S448x128_S10242x128_1_0_0_1_n_n none
      (shapeCast S10242x448 x0 shapeCasts_S1x10242x448_S10242x448)
      (shapeCast S448x128 x1 shapeCasts_S448x128_S448x128)
      (constant (F := Ideal) S10242x128 .f32 0x00000000#32))
    (broadcastTo S10242x128 (shapeCast S1x128 x2 shapeCasts_S128_S1x128) broadcasts_S1x128_S10242x128)

/-- It is the convolution with bias of the specification, on the one sample of the block. -/
theorem kLin0_apply (x0 : FVec Ideal S1x10242x448 .bf16) (x1 : FVec Ideal S448x128 .bf16) (x2 : FVec Ideal S128 .f32)
    (v : Fin 10242) (o : Fin 128) :
    kLin0 x0 x1 x2 (ix2 v o)
      = Cert.Spec.lin (K := 448) (fun v k => x0 (ix3 (0 : Fin 1) v k)) (fun k o => x1 (ix2 k o))
          (fun o => x2 (ix1 o)) v o := by
  unfold kLin0 Cert.Spec.lin
  rw [addf_apply, mm0_apply, chanRow_apply]
  refine congrArg (· + x2 (ix1 o)) (Finset.sum_congr rfl fun k _ => ?_)
  rw [shapeCast_1ab_ab_apply, shapeCast_self]

/-- Stage 1 (K = 448): the stored block at `(0, v, o)`. -/
theorem pay0_apply (x0 : Vec Ideal S1x10242x448 .bf16) (x1 : Vec Ideal S448x128 .bf16)
    (x2 x3 x4 : Vec Ideal S128 .f32) (v : Fin 10242) (o : Fin 128) :
    k0_pay1 (F := Ideal) (k0_pay2 (F := Ideal) x0 x1 x2 x3 x4) (ix3 (0 : Fin 1) v o)
      = Cert.Spec.stage (K := 448) (fun v k => x0 (ix3 (0 : Fin 1) v k)) (fun k o => x1 (ix2 k o))
          (fun o => x2 (ix1 o)) (fun o => x3 (ix1 o)) (fun o => x4 (ix1 o)) v o := by
  have hpay : k0_pay2 (F := Ideal) x0 x1 x2 x3 x4 = kLrelu (kNorm (kLin0 x0 x1 x2) x3 x4) := rfl
  have hlin : (fun v o => kLin0 x0 x1 x2 (ix2 v o))
      = Cert.Spec.lin (K := 448) (fun v k => x0 (ix3 (0 : Fin 1) v k)) (fun k o => x1 (ix2 k o))
          (fun o => x2 (ix1 o)) :=
    funext fun v => funext fun o => kLin0_apply x0 x1 x2 v o
  unfold k0_pay1 Cert.Spec.stage
  rw [shapeCast_ab_1ab_apply, hpay, kLrelu_apply, kNorm_apply, hlin]

/-! ## Stage 2's matrix product (896 contracted features) -/

theorem lhs1_0 (i : S10242x128.Idx) (q : dot_S10242x896_S896x128_S10242x128_1_0_0_1_n_n.contr.Idx) :
    (dot_S10242x896_S896x128_S10242x128_1_0_0_1_n_n.lhsIdx i q 0).val = (i 0).val := by
  unfold DotDims.lhsIdx
  rw [dif_neg (show ¬(0 : Fin S10242x896.rank) ∈ dot_S10242x896_S896x128_S10242x128_1_0_0_1_n_n.lhsBatch by decide),
    dif_pos (show (0 : Fin S10242x896.rank) ∈ dot_S10242x896_S896x128_S10242x128_1_0_0_1_n_n.lhsNonContracting by decide)]
  rfl
theorem lhs1_1 (i : S10242x128.Idx) (q : dot_S10242x896_S896x128_S10242x128_1_0_0_1_n_n.contr.Idx) :
    (dot_S10242x896_S896x128_S10242x128_1_0_0_1_n_n.lhsIdx i q 1).val = (q ⟨0, by decide⟩).val :=
  dot_S10242x896_S896x128_S10242x128_1_0_0_1_n_n.lhsIdx_val_of_single rfl i q
theorem rhs1_0 (i : S10242x128.Idx) (q : dot_S10242x896_S896x128_S10242x128_1_0_0_1_n_n.contr.Idx) :
    (dot_S10242x896_S896x128_S10242x128_1_0_0_1_n_n.rhsIdx i q 0).val = (q ⟨0, by decide⟩).val :=
  dot_S10242x896_S896x128_S10242x128_1_0_0_1_n_n.rhsIdx_val_of_single rfl i q
theorem rhs1_1 (i : S10242x128.Idx) (q : dot_S10242x896_S896x128_S10242x128_1_0_0_1_n_n.contr.Idx) :
    (dot_S10242x896_S896x128_S10242x128_1_0_0_1_n_n.rhsIdx i q 1).val = (i 1).val := by
  unfold DotDims.rhsIdx
  rw [dif_neg (show ¬(1 : Fin S896x128.rank) ∈ dot_S10242x896_S896x128_S10242x128_1_0_0_1_n_n.rhsBatch by decide),
    dif_pos (show (1 : Fin S896x128.rank) ∈ dot_S10242x896_S896x128_S10242x128_1_0_0_1_n_n.rhsNonContracting by decide)]
  rfl

/-- The matrix product into a zero accumulator, read at (v, o): the sum over the 896 contracted features. -/
theorem mm1_apply (a : FVec Ideal S10242x896 .bf16) (w : FVec Ideal S896x128 .bf16) (v : Fin 10242) (o : Fin 128) :
    matmul dot_S10242x896_S896x128_S10242x128_1_0_0_1_n_n none a w (constant (F := Ideal) S10242x128 .f32 0x00000000#32) (ix2 v o)
      = ∑ k : Fin 896, a (ix2 v k) * w (ix2 k o) := by
  simp only [matmul]
  rw [Ideal.matmul_constant_zero_apply,
    ← Equiv.sum_comp (contrEquiv1 dot_S10242x896_S896x128_S10242x128_1_0_0_1_n_n 896 rfl rfl).symm]
  refine Finset.sum_congr rfl fun k _ => ?_
  have hk := contrEquiv1_symm_val dot_S10242x896_S896x128_S10242x128_1_0_0_1_n_n 896 rfl rfl k
  have el : dot_S10242x896_S896x128_S10242x128_1_0_0_1_n_n.lhsIdx (ix2 v o)
      ((contrEquiv1 dot_S10242x896_S896x128_S10242x128_1_0_0_1_n_n 896 rfl rfl).symm k) = ix2 v k :=
    funext fun c => Fin.ext (by
      match c with
      | ⟨0, _⟩ => exact lhs1_0 _ _
      | ⟨1, _⟩ => exact (lhs1_1 _ _).trans hk)
  have er : dot_S10242x896_S896x128_S10242x128_1_0_0_1_n_n.rhsIdx (ix2 v o)
      ((contrEquiv1 dot_S10242x896_S896x128_S10242x128_1_0_0_1_n_n 896 rfl rfl).symm k) = ix2 k o :=
    funext fun c => Fin.ext (by
      match c with
      | ⟨0, _⟩ => exact (rhs1_0 _ _).trans hk
      | ⟨1, _⟩ => exact rhs1_1 _ _)
  rw [el, er]

/-- Stage 2's linear part as the kernel body writes it: the product into a zero accumulator plus the bias row
    broadcast along the vertices. -/
def kLin1 (x0 : FVec Ideal S1x10242x896 .bf16) (x1 : FVec Ideal S896x128 .bf16) (x2 : FVec Ideal S128 .f32) :
    FVec Ideal S10242x128 .f32 :=
  addf
    (matmul dot_S10242x896_S896x128_S10242x128_1_0_0_1_n_n none
      (shapeCast S10242x896 x0 shapeCasts_S1x10242x896_S10242x896)
      (shapeCast S896x128 x1 shapeCasts_S896x128_S896x128)
      (constant (F := Ideal) S10242x128 .f32 0x00000000#32))
    (broadcastTo S10242x128 (shapeCast S1x128 x2 shapeCasts_S128_S1x128) broadcasts_S1x128_S10242x128)

/-- It is the convolution with bias of the specification, on the one sample of the block. -/
theorem kLin1_apply (x0 : FVec Ideal S1x10242x896 .bf16) (x1 : FVec Ideal S896x128 .bf16) (x2 : FVec Ideal S128 .f32)
    (v : Fin 10242) (o : Fin 128) :
    kLin1 x0 x1 x2 (ix2 v o)
      = Cert.Spec.lin (K := 896) (fun v k => x0 (ix3 (0 : Fin 1) v k)) (fun k o => x1 (ix2 k o))
          (fun o => x2 (ix1 o)) v o := by
  unfold kLin1 Cert.Spec.lin
  rw [addf_apply, mm1_apply, chanRow_apply]
  refine congrArg (· + x2 (ix1 o)) (Finset.sum_congr rfl fun k _ => ?_)
  rw [shapeCast_1ab_ab_apply, shapeCast_self]

/-- Stage 2 (K = 896): the stored block at `(0, v, o)`. -/
theorem pay1_apply (x0 : Vec Ideal S1x10242x896 .bf16) (x1 : Vec Ideal S896x128 .bf16)
    (x2 x3 x4 : Vec Ideal S128 .f32) (v : Fin 10242) (o : Fin 128) :
    k1_pay1 (F := Ideal) (k1_pay2 (F := Ideal) x0 x1 x2 x3 x4) (ix3 (0 : Fin 1) v o)
      = Cert.Spec.stage (K := 896) (fun v k => x0 (ix3 (0 : Fin 1) v k)) (fun k o => x1 (ix2 k o))
          (fun o => x2 (ix1 o)) (fun o => x3 (ix1 o)) (fun o => x4 (ix1 o)) v o := by
  have hpay : k1_pay2 (F := Ideal) x0 x1 x2 x3 x4 = kLrelu (kNorm (kLin1 x0 x1 x2) x3 x4) := rfl
  have hlin : (fun v o => kLin1 x0 x1 x2 (ix2 v o))
      = Cert.Spec.lin (K := 896) (fun v k => x0 (ix3 (0 : Fin 1) v k)) (fun k o => x1 (ix2 k o))
          (fun o => x2 (ix1 o)) :=
    funext fun v => funext fun o => kLin1_apply x0 x1 x2 v o
  unfold k1_pay1 Cert.Spec.stage
  rw [shapeCast_ab_1ab_apply, hpay, kLrelu_apply, kNorm_apply, hlin]

end Cert.KernelIdeal.Stage

end
-- ==== Proof.RegionValue.lean ====
/-
  What each pallas_call leaves in its output array, index by index.

  The grid has one point per sample. Point `t` stages sample `t`'s block of the gathered table (window 0: block index
  `(t, 0, 0)` of the [16, 10242, K] array), the whole weight and the three per-channel vectors (windows 1 to 4, block
  index zero at every point), runs the body, and writes its [1, 10242, 128] block back as block `(t, 0, 0)` of the output
  array (window 5). The sixteen blocks tile the array, so after the run the array at `(b, v, o)` is the body's value at
  `(0, v, o)` on sample `b`'s inputs: `Spec.stage` of sample `b`'s table, at `(v, o)`.
-/
import proofs.«405148_j26792005992604_1_alg».proof.Proof.Gen.KernelIdeal.Frame
import proofs.«405148_j26792005992604_1_alg».proof.Proof.KernelStage
import proofs.«405148_j26792005992604_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.SL.Sem ValueIdx
open Idealize.ShloMosaic.Pipeline (Dat)

-- the TensorCore's buffer contents when the region is entered: a parameter, as in the generated frame
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Region 0 -/

theorem N0 : cfg0.N = 16 := N_0

/-- The whole output array of region 0 as one function of the arrays the region finds: at `(b, v, o)` the stage of
    sample `b`'s table. -/
def G0 (c : Dev nD) : Vec Ideal S16x10242x128 .f32 := fun i =>
  Cert.Spec.stage (K := 448) (fun v k => (V c main_v8 : Vec Ideal S16x10242x448 .bf16) (ix3 ⟨(i 0).val, (i 0).isLt⟩ v k))
    (fun k o => (V c main_v9 : Vec Ideal S448x128 .bf16) (ix2 k o))
    (fun o => (V c main_arg4 : Vec Ideal S128 .f32) (ix1 o)) (fun o => (V c main_arg5 : Vec Ideal S128 .f32) (ix1 o))
    (fun o => (V c main_arg6 : Vec Ideal S128 .f32) (ix1 o)) ⟨(i 1).val, (i 1).isLt⟩ ⟨(i 2).val, (i 2).isLt⟩

/-- The printed index maps over the grid: the table's and the output's block index is `(t, 0, 0)`, the others' zero. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- The body's stored block at any index of the block: its first coordinate is `0`. -/
theorem point0 (x0 : Vec Ideal S1x10242x448 .bf16) (x1 : Vec Ideal S448x128 .bf16) (x2 x3 x4 : Vec Ideal S128 .f32)
    (j : S1x10242x128.Idx) :
    k0_pay1 (F := Ideal) (k0_pay2 (F := Ideal) x0 x1 x2 x3 x4) j
      = Cert.Spec.stage (K := 448) (fun v k => x0 (ix3 (0 : Fin 1) v k)) (fun k o => x1 (ix2 k o))
          (fun o => x2 (ix1 o)) (fun o => x3 (ix1 o)) (fun o => x4 (ix1 o)) ⟨(j 1).val, (j 1).isLt⟩ ⟨(j 2).val, (j 2).isLt⟩ := by
  have hj : j = ix3 (0 : Fin 1) ⟨(j 1).val, (j 1).isLt⟩ ⟨(j 2).val, (j 2).isLt⟩ := funext fun a => Fin.ext (by
    match a with
    | ⟨0, _⟩ => show (j 0).val = 0; have h : (j 0).val < 1 := (j 0).isLt; omega
    | ⟨1, _⟩ => rfl
    | ⟨2, _⟩ => rfl)
  exact (congrArg (k0_pay1 (F := Ideal) (k0_pay2 (F := Ideal) x0 x1 x2 x3 x4)) hj).trans
    (Cert.KernelIdeal.Stage.pay0_apply x0 x1 x2 x3 x4 ⟨(j 1).val, (j 1).isLt⟩ ⟨(j 2).val, (j 2).isLt⟩)

/-- Window 0's block at point `t` is sample `t`'s table. -/
theorem iblk0_0_apply (c : Dev nD) (t : Fin cfg0.N) (v : Fin 10242) (k : Fin 448) :
    (iblk0 V c 0 t : Vec Ideal S1x10242x448 .bf16) (ix3 (0 : Fin 1) v k)
      = (V c main_v8 : Vec Ideal S16x10242x448 .bf16) (ix3 (t.cast N0) v k) := by
  obtain ⟨e0, e1, e2, -⟩ := idx_facts0 t
  unfold iblk0
  rw [View.read_apply]
  show (V c main_v8 : Vec Ideal S16x10242x448 .bf16) _ = _
  congr 1
  funext a; apply Fin.ext
  match a with
  | ⟨0, _⟩ => show win0_0.index t (0 : Fin 3) * 1 + 1 * 0 = t.val; omega
  | ⟨1, _⟩ => show win0_0.index t (1 : Fin 3) * 10242 + 1 * v.val = v.val; omega
  | ⟨2, _⟩ => show win0_0.index t (2 : Fin 3) * 448 + 1 * k.val = k.val; omega

/-- Window 1's block at every point is the whole weight. -/
theorem iblk0_1_apply (c : Dev nD) (t : Fin cfg0.N) (k : Fin 448) (o : Fin 128) :
    (iblk0 V c 1 t : Vec Ideal S448x128 .bf16) (ix2 k o) = (V c main_v9 : Vec Ideal S448x128 .bf16) (ix2 k o) := by
  obtain ⟨-, -, -, e3, e4, -⟩ := idx_facts0 t
  unfold iblk0
  rw [View.read_apply]
  show (V c main_v9 : Vec Ideal S448x128 .bf16) _ = _
  congr 1
  funext a; apply Fin.ext
  match a with
  | ⟨0, _⟩ => show win0_1.index t (0 : Fin 2) * 448 + 1 * k.val = k.val; omega
  | ⟨1, _⟩ => show win0_1.index t (1 : Fin 2) * 128 + 1 * o.val = o.val; omega

/-- Windows 2, 3 and 4: the whole per-channel vector at every point. -/
theorem iblk0_2_apply (c : Dev nD) (t : Fin cfg0.N) (o : Fin 128) :
    (iblk0 V c 2 t : Vec Ideal S128 .f32) (ix1 o) = (V c main_arg4 : Vec Ideal S128 .f32) (ix1 o) := by
  obtain ⟨-, -, -, -, -, e5, -⟩ := idx_facts0 t
  unfold iblk0
  rw [View.read_apply]
  show (V c main_arg4 : Vec Ideal S128 .f32) _ = _
  congr 1
  funext a; apply Fin.ext
  match a with
  | ⟨0, _⟩ => show win0_2.index t (0 : Fin 1) * 128 + 1 * o.val = o.val; omega

theorem iblk0_3_apply (c : Dev nD) (t : Fin cfg0.N) (o : Fin 128) :
    (iblk0 V c 3 t : Vec Ideal S128 .f32) (ix1 o) = (V c main_arg5 : Vec Ideal S128 .f32) (ix1 o) := by
  obtain ⟨-, -, -, -, -, -, e6, -⟩ := idx_facts0 t
  unfold iblk0
  rw [View.read_apply]
  show (V c main_arg5 : Vec Ideal S128 .f32) _ = _
  congr 1
  funext a; apply Fin.ext
  match a with
  | ⟨0, _⟩ => show win0_3.index t (0 : Fin 1) * 128 + 1 * o.val = o.val; omega

theorem iblk0_4_apply (c : Dev nD) (t : Fin cfg0.N) (o : Fin 128) :
    (iblk0 V c 4 t : Vec Ideal S128 .f32) (ix1 o) = (V c main_arg6 : Vec Ideal S128 .f32) (ix1 o) := by
  obtain ⟨-, -, -, -, -, -, -, e7, -⟩ := idx_facts0 t
  unfold iblk0
  rw [View.read_apply]
  show (V c main_arg6 : Vec Ideal S128 .f32) _ = _
  congr 1
  funext a; apply Fin.ext
  match a with
  | ⟨0, _⟩ => show win0_4.index t (0 : Fin 1) * 128 + 1 * o.val = o.val; omega

/-- What point `t` writes back is block `t` of `G0`. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz3]
  simp only [View.ld_unit_zero (S := S1x10242x448) hz3, View.ld_unit_zero (S := S448x128) hz2, View.ld_unit_zero (S := S128) hz1]
  funext j
  show k0_pay1 (F := Ideal) (k0_pay2 (F := Ideal) (iblk0 V c 0 t) (iblk0 V c 1 t) (iblk0 V c 2 t) (iblk0 V c 3 t) (iblk0 V c 4 t)) j
    = G0 V c (((cfg0.win 5).blk t).view.emb j)
  obtain ⟨-, -, -, -, -, -, -, -, e8, e9, e10⟩ := idx_facts0 t
  have he : ((cfg0.win 5).blk t).view.emb j = ix3 (t.cast N0) ⟨(j 1).val, (j 1).isLt⟩ ⟨(j 2).val, (j 2).isLt⟩ := by
    funext a; apply Fin.ext
    match a with
    | ⟨0, _⟩ => show win0_5.index t (0 : Fin 3) * 1 + 1 * (j 0).val = t.val; have hj : (j 0).val < 1 := (j 0).isLt; omega
    | ⟨1, _⟩ => show win0_5.index t (1 : Fin 3) * 10242 + 1 * (j 1).val = (j 1).val; omega
    | ⟨2, _⟩ => show win0_5.index t (2 : Fin 3) * 128 + 1 * (j 2).val = (j 2).val; omega
  rw [he]
  refine (point0 (iblk0 V c 0 t) (iblk0 V c 1 t) (iblk0 V c 2 t) (iblk0 V c 3 t) (iblk0 V c 4 t) j).trans ?_
  have r0 : (fun (v : Fin 10242) (k : Fin 448) => (iblk0 V c 0 t : Vec Ideal S1x10242x448 .bf16) (ix3 (0 : Fin 1) v k))
      = fun v k => (V c main_v8 : Vec Ideal S16x10242x448 .bf16) (ix3 (t.cast N0) v k) :=
    funext fun v => funext fun k => iblk0_0_apply V c t v k
  have r1 : (fun (k : Fin 448) (o : Fin 128) => (iblk0 V c 1 t : Vec Ideal S448x128 .bf16) (ix2 k o))
      = fun k o => (V c main_v9 : Vec Ideal S448x128 .bf16) (ix2 k o) :=
    funext fun k => funext fun o => iblk0_1_apply V c t k o
  have r2 : (fun (o : Fin 128) => (iblk0 V c 2 t : Vec Ideal S128 .f32) (ix1 o)) = fun o => (V c main_arg4 : Vec Ideal S128 .f32) (ix1 o) :=
    funext fun o => iblk0_2_apply V c t o
  have r3 : (fun (o : Fin 128) => (iblk0 V c 3 t : Vec Ideal S128 .f32) (ix1 o)) = fun o => (V c main_arg5 : Vec Ideal S128 .f32) (ix1 o) :=
    funext fun o => iblk0_3_apply V c t o
  have r4 : (fun (o : Fin 128) => (iblk0 V c 4 t : Vec Ideal S128 .f32) (ix1 o)) = fun o => (V c main_arg6 : Vec Ideal S128 .f32) (ix1 o) :=
    funext fun o => iblk0_4_apply V c t o
  rw [r0, r1, r2, r3, r4]
  rfl

/-- An index of the array is in point `t`'s block iff each coordinate is in the block's range on its axis. -/
theorem mem_blk0 (t : Fin cfg0.N) (i : S16x10242x128.Idx) :
    i ∈ ((cfg0.win 5).blk t).view.set ↔ ∀ a : Fin 3, win0_5.index t a * S1x10242x128.size a ≤ (i a).val
      ∧ (i a).val < win0_5.index t a * S1x10242x128.size a + S1x10242x128.size a := by
  show i ∈ ((View.whole main_v10).slice (win0_5.rect t)).set ↔ _
  rw [View.set_slice_whole, Rect.mem_set_unit]
  exact Iff.rfl

/-- The sixteen blocks tile the array: the point that covers sample `b` is `b` itself. -/
theorem cover0 (i : S16x10242x128.Idx) :
    ∃ t : Fin cfg0.N, (cfg0.win 5).flush t = true ∧ i ∈ ((cfg0.win 5).blk t).view.set := by
  have hi0 : (i 0).val < 16 := (i 0).isLt
  have hi1 : (i 1).val < 10242 := (i 1).isLt
  have hi2 : (i 2).val < 128 := (i 2).isLt
  refine ⟨Fin.cast N0.symm ⟨(i 0).val, hi0⟩, flush0_5 _, ?_⟩
  obtain ⟨-, -, -, -, -, -, -, -, e8, e9, e10⟩ := idx_facts0 (Fin.cast N0.symm ⟨(i 0).val, hi0⟩)
  have e8' : win0_5.index (Fin.cast N0.symm ⟨(i 0).val, hi0⟩) (0 : Fin 3) = (i 0).val := e8
  rw [mem_blk0]
  intro a
  match a with
  | ⟨0, _⟩ =>
    show win0_5.index (Fin.cast N0.symm ⟨(i 0).val, hi0⟩) (0 : Fin 3) * 1 ≤ (i 0).val
      ∧ (i 0).val < win0_5.index (Fin.cast N0.symm ⟨(i 0).val, hi0⟩) (0 : Fin 3) * 1 + 1
    omega
  | ⟨1, _⟩ =>
    show win0_5.index (Fin.cast N0.symm ⟨(i 0).val, hi0⟩) (1 : Fin 3) * 10242 ≤ (i 1).val
      ∧ (i 1).val < win0_5.index (Fin.cast N0.symm ⟨(i 0).val, hi0⟩) (1 : Fin 3) * 10242 + 10242
    omega
  | ⟨2, _⟩ =>
    show win0_5.index (Fin.cast N0.symm ⟨(i 0).val, hi0⟩) (2 : Fin 3) * 128 ≤ (i 2).val
      ∧ (i 2).val < win0_5.index (Fin.cast N0.symm ⟨(i 0).val, hi0⟩) (2 : Fin 3) * 128 + 128
    omega

/-- The array after the run is `G0`. -/
theorem arr0_eq (c : Dev nD) : (dat0 (F := Ideal) V c).arrAt 5 cfg0.N = G0 V c :=
  (dat0 (F := Ideal) V c).arrAt_eq_of_cover 5 (G0 V c) (fun t _ => flushed0_eq V c t) cover0

/-- Region 0's output array (the kernel's %10) after the run, at `(b, v, o)`. -/
theorem final0 (c : Dev nD) (b : Fin 16) (v : Fin 10242) (o : Fin 128) :
    ((dat0 (F := Ideal) V c).arrAt 5 cfg0.N : Vec Ideal S16x10242x128 .f32) (ix3 b v o)
      = Cert.Spec.stage (K := 448) (fun v k => (V c main_v8 : Vec Ideal S16x10242x448 .bf16) (ix3 b v k))
          (fun k o => (V c main_v9 : Vec Ideal S448x128 .bf16) (ix2 k o))
          (fun o => (V c main_arg4 : Vec Ideal S128 .f32) (ix1 o)) (fun o => (V c main_arg5 : Vec Ideal S128 .f32) (ix1 o))
          (fun o => (V c main_arg6 : Vec Ideal S128 .f32) (ix1 o)) v o := by
  rw [arr0_eq]
  rfl

/-! ## Region 1 -/

theorem N1 : cfg1.N = 16 := N_1

/-- The whole output array of region 1 as one function of the arrays the region finds: at `(b, v, o)` the stage of
    sample `b`'s second table. -/
def G1 (c : Dev nD) : Vec Ideal S16x10242x128 .f32 := fun i =>
  Cert.Spec.stage (K := 896) (fun v k => (V c main_v13 : Vec Ideal S16x10242x896 .bf16) (ix3 ⟨(i 0).val, (i 0).isLt⟩ v k))
    (fun k o => (V c main_v14 : Vec Ideal S896x128 .bf16) (ix2 k o))
    (fun o => (V c main_arg8 : Vec Ideal S128 .f32) (ix1 o)) (fun o => (V c main_arg9 : Vec Ideal S128 .f32) (ix1 o))
    (fun o => (V c main_arg10 : Vec Ideal S128 .f32) (ix1 o)) ⟨(i 1).val, (i 1).isLt⟩ ⟨(i 2).val, (i 2).isLt⟩

/-- The printed index maps over the grid: the table's and the output's block index is `(t, 0, 0)`, the others' zero. -/
theorem idx_facts1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 3) = t.val ∧ win1_5.index t (1 : Fin 3) = 0 ∧ win1_5.index t (2 : Fin 3) = 0 :=
  (by decide +kernel : ∀ t : Fin grid1.N, _)

/-- The body's stored block at any index of the block: its first coordinate is `0`. -/
theorem point1 (x0 : Vec Ideal S1x10242x896 .bf16) (x1 : Vec Ideal S896x128 .bf16) (x2 x3 x4 : Vec Ideal S128 .f32)
    (j : S1x10242x128.Idx) :
    k1_pay1 (F := Ideal) (k1_pay2 (F := Ideal) x0 x1 x2 x3 x4) j
      = Cert.Spec.stage (K := 896) (fun v k => x0 (ix3 (0 : Fin 1) v k)) (fun k o => x1 (ix2 k o))
          (fun o => x2 (ix1 o)) (fun o => x3 (ix1 o)) (fun o => x4 (ix1 o)) ⟨(j 1).val, (j 1).isLt⟩ ⟨(j 2).val, (j 2).isLt⟩ := by
  have hj : j = ix3 (0 : Fin 1) ⟨(j 1).val, (j 1).isLt⟩ ⟨(j 2).val, (j 2).isLt⟩ := funext fun a => Fin.ext (by
    match a with
    | ⟨0, _⟩ => show (j 0).val = 0; have h : (j 0).val < 1 := (j 0).isLt; omega
    | ⟨1, _⟩ => rfl
    | ⟨2, _⟩ => rfl)
  exact (congrArg (k1_pay1 (F := Ideal) (k1_pay2 (F := Ideal) x0 x1 x2 x3 x4)) hj).trans
    (Cert.KernelIdeal.Stage.pay1_apply x0 x1 x2 x3 x4 ⟨(j 1).val, (j 1).isLt⟩ ⟨(j 2).val, (j 2).isLt⟩)

/-- Window 0's block at point `t` is sample `t`'s second table. -/
theorem iblk1_0_apply (c : Dev nD) (t : Fin cfg1.N) (v : Fin 10242) (k : Fin 896) :
    (iblk1 V c 0 t : Vec Ideal S1x10242x896 .bf16) (ix3 (0 : Fin 1) v k)
      = (V c main_v13 : Vec Ideal S16x10242x896 .bf16) (ix3 (t.cast N1) v k) := by
  obtain ⟨e0, e1, e2, -⟩ := idx_facts1 t
  unfold iblk1
  rw [View.read_apply]
  show (V c main_v13 : Vec Ideal S16x10242x896 .bf16) _ = _
  congr 1
  funext a; apply Fin.ext
  match a with
  | ⟨0, _⟩ => show win1_0.index t (0 : Fin 3) * 1 + 1 * 0 = t.val; omega
  | ⟨1, _⟩ => show win1_0.index t (1 : Fin 3) * 10242 + 1 * v.val = v.val; omega
  | ⟨2, _⟩ => show win1_0.index t (2 : Fin 3) * 896 + 1 * k.val = k.val; omega

/-- Window 1's block at every point is the whole weight. -/
theorem iblk1_1_apply (c : Dev nD) (t : Fin cfg1.N) (k : Fin 896) (o : Fin 128) :
    (iblk1 V c 1 t : Vec Ideal S896x128 .bf16) (ix2 k o) = (V c main_v14 : Vec Ideal S896x128 .bf16) (ix2 k o) := by
  obtain ⟨-, -, -, e3, e4, -⟩ := idx_facts1 t
  unfold iblk1
  rw [View.read_apply]
  show (V c main_v14 : Vec Ideal S896x128 .bf16) _ = _
  congr 1
  funext a; apply Fin.ext
  match a with
  | ⟨0, _⟩ => show win1_1.index t (0 : Fin 2) * 896 + 1 * k.val = k.val; omega
  | ⟨1, _⟩ => show win1_1.index t (1 : Fin 2) * 128 + 1 * o.val = o.val; omega

/-- Windows 2, 3 and 4: the whole per-channel vector at every point. -/
theorem iblk1_2_apply (c : Dev nD) (t : Fin cfg1.N) (o : Fin 128) :
    (iblk1 V c 2 t : Vec Ideal S128 .f32) (ix1 o) = (V c main_arg8 : Vec Ideal S128 .f32) (ix1 o) := by
  obtain ⟨-, -, -, -, -, e5, -⟩ := idx_facts1 t
  unfold iblk1
  rw [View.read_apply]
  show (V c main_arg8 : Vec Ideal S128 .f32) _ = _
  congr 1
  funext a; apply Fin.ext
  match a with
  | ⟨0, _⟩ => show win1_2.index t (0 : Fin 1) * 128 + 1 * o.val = o.val; omega

theorem iblk1_3_apply (c : Dev nD) (t : Fin cfg1.N) (o : Fin 128) :
    (iblk1 V c 3 t : Vec Ideal S128 .f32) (ix1 o) = (V c main_arg9 : Vec Ideal S128 .f32) (ix1 o) := by
  obtain ⟨-, -, -, -, -, -, e6, -⟩ := idx_facts1 t
  unfold iblk1
  rw [View.read_apply]
  show (V c main_arg9 : Vec Ideal S128 .f32) _ = _
  congr 1
  funext a; apply Fin.ext
  match a with
  | ⟨0, _⟩ => show win1_3.index t (0 : Fin 1) * 128 + 1 * o.val = o.val; omega

theorem iblk1_4_apply (c : Dev nD) (t : Fin cfg1.N) (o : Fin 128) :
    (iblk1 V c 4 t : Vec Ideal S128 .f32) (ix1 o) = (V c main_arg10 : Vec Ideal S128 .f32) (ix1 o) := by
  obtain ⟨-, -, -, -, -, -, -, e7, -⟩ := idx_facts1 t
  unfold iblk1
  rw [View.read_apply]
  show (V c main_arg10 : Vec Ideal S128 .f32) _ = _
  congr 1
  funext a; apply Fin.ext
  match a with
  | ⟨0, _⟩ => show win1_4.index t (0 : Fin 1) * 128 + 1 * o.val = o.val; omega

/-- What point `t` writes back is block `t` of `G1`. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz3]
  simp only [View.ld_unit_zero (S := S1x10242x896) hz3, View.ld_unit_zero (S := S896x128) hz2, View.ld_unit_zero (S := S128) hz1]
  funext j
  show k1_pay1 (F := Ideal) (k1_pay2 (F := Ideal) (iblk1 V c 0 t) (iblk1 V c 1 t) (iblk1 V c 2 t) (iblk1 V c 3 t) (iblk1 V c 4 t)) j
    = G1 V c (((cfg1.win 5).blk t).view.emb j)
  obtain ⟨-, -, -, -, -, -, -, -, e8, e9, e10⟩ := idx_facts1 t
  have he : ((cfg1.win 5).blk t).view.emb j = ix3 (t.cast N1) ⟨(j 1).val, (j 1).isLt⟩ ⟨(j 2).val, (j 2).isLt⟩ := by
    funext a; apply Fin.ext
    match a with
    | ⟨0, _⟩ => show win1_5.index t (0 : Fin 3) * 1 + 1 * (j 0).val = t.val; have hj : (j 0).val < 1 := (j 0).isLt; omega
    | ⟨1, _⟩ => show win1_5.index t (1 : Fin 3) * 10242 + 1 * (j 1).val = (j 1).val; omega
    | ⟨2, _⟩ => show win1_5.index t (2 : Fin 3) * 128 + 1 * (j 2).val = (j 2).val; omega
  rw [he]
  refine (point1 (iblk1 V c 0 t) (iblk1 V c 1 t) (iblk1 V c 2 t) (iblk1 V c 3 t) (iblk1 V c 4 t) j).trans ?_
  have r0 : (fun (v : Fin 10242) (k : Fin 896) => (iblk1 V c 0 t : Vec Ideal S1x10242x896 .bf16) (ix3 (0 : Fin 1) v k))
      = fun v k => (V c main_v13 : Vec Ideal S16x10242x896 .bf16) (ix3 (t.cast N1) v k) :=
    funext fun v => funext fun k => iblk1_0_apply V c t v k
  have r1 : (fun (k : Fin 896) (o : Fin 128) => (iblk1 V c 1 t : Vec Ideal S896x128 .bf16) (ix2 k o))
      = fun k o => (V c main_v14 : Vec Ideal S896x128 .bf16) (ix2 k o) :=
    funext fun k => funext fun o => iblk1_1_apply V c t k o
  have r2 : (fun (o : Fin 128) => (iblk1 V c 2 t : Vec Ideal S128 .f32) (ix1 o)) = fun o => (V c main_arg8 : Vec Ideal S128 .f32) (ix1 o) :=
    funext fun o => iblk1_2_apply V c t o
  have r3 : (fun (o : Fin 128) => (iblk1 V c 3 t : Vec Ideal S128 .f32) (ix1 o)) = fun o => (V c main_arg9 : Vec Ideal S128 .f32) (ix1 o) :=
    funext fun o => iblk1_3_apply V c t o
  have r4 : (fun (o : Fin 128) => (iblk1 V c 4 t : Vec Ideal S128 .f32) (ix1 o)) = fun o => (V c main_arg10 : Vec Ideal S128 .f32) (ix1 o) :=
    funext fun o => iblk1_4_apply V c t o
  rw [r0, r1, r2, r3, r4]
  rfl

/-- An index of the array is in point `t`'s block iff each coordinate is in the block's range on its axis. -/
theorem mem_blk1 (t : Fin cfg1.N) (i : S16x10242x128.Idx) :
    i ∈ ((cfg1.win 5).blk t).view.set ↔ ∀ a : Fin 3, win1_5.index t a * S1x10242x128.size a ≤ (i a).val
      ∧ (i a).val < win1_5.index t a * S1x10242x128.size a + S1x10242x128.size a := by
  show i ∈ ((View.whole main_v15).slice (win1_5.rect t)).set ↔ _
  rw [View.set_slice_whole, Rect.mem_set_unit]
  exact Iff.rfl

/-- The sixteen blocks tile the array: the point that covers sample `b` is `b` itself. -/
theorem cover1 (i : S16x10242x128.Idx) :
    ∃ t : Fin cfg1.N, (cfg1.win 5).flush t = true ∧ i ∈ ((cfg1.win 5).blk t).view.set := by
  have hi0 : (i 0).val < 16 := (i 0).isLt
  have hi1 : (i 1).val < 10242 := (i 1).isLt
  have hi2 : (i 2).val < 128 := (i 2).isLt
  refine ⟨Fin.cast N1.symm ⟨(i 0).val, hi0⟩, flush1_5 _, ?_⟩
  obtain ⟨-, -, -, -, -, -, -, -, e8, e9, e10⟩ := idx_facts1 (Fin.cast N1.symm ⟨(i 0).val, hi0⟩)
  have e8' : win1_5.index (Fin.cast N1.symm ⟨(i 0).val, hi0⟩) (0 : Fin 3) = (i 0).val := e8
  rw [mem_blk1]
  intro a
  match a with
  | ⟨0, _⟩ =>
    show win1_5.index (Fin.cast N1.symm ⟨(i 0).val, hi0⟩) (0 : Fin 3) * 1 ≤ (i 0).val
      ∧ (i 0).val < win1_5.index (Fin.cast N1.symm ⟨(i 0).val, hi0⟩) (0 : Fin 3) * 1 + 1
    omega
  | ⟨1, _⟩ =>
    show win1_5.index (Fin.cast N1.symm ⟨(i 0).val, hi0⟩) (1 : Fin 3) * 10242 ≤ (i 1).val
      ∧ (i 1).val < win1_5.index (Fin.cast N1.symm ⟨(i 0).val, hi0⟩) (1 : Fin 3) * 10242 + 10242
    omega
  | ⟨2, _⟩ =>
    show win1_5.index (Fin.cast N1.symm ⟨(i 0).val, hi0⟩) (2 : Fin 3) * 128 ≤ (i 2).val
      ∧ (i 2).val < win1_5.index (Fin.cast N1.symm ⟨(i 0).val, hi0⟩) (2 : Fin 3) * 128 + 128
    omega

/-- The array after the run is `G1`. -/
theorem arr1_eq (c : Dev nD) : (dat1 (F := Ideal) V c).arrAt 5 cfg1.N = G1 V c :=
  (dat1 (F := Ideal) V c).arrAt_eq_of_cover 5 (G1 V c) (fun t _ => flushed1_eq V c t) cover1

/-- Region 1's output array (the kernel's %15) after the run, at `(b, v, o)`. -/
theorem final1 (c : Dev nD) (b : Fin 16) (v : Fin 10242) (o : Fin 128) :
    ((dat1 (F := Ideal) V c).arrAt 5 cfg1.N : Vec Ideal S16x10242x128 .f32) (ix3 b v o)
      = Cert.Spec.stage (K := 896) (fun v k => (V c main_v13 : Vec Ideal S16x10242x896 .bf16) (ix3 b v k))
          (fun k o => (V c main_v14 : Vec Ideal S896x128 .bf16) (ix2 k o))
          (fun o => (V c main_arg8 : Vec Ideal S128 .f32) (ix1 o)) (fun o => (V c main_arg9 : Vec Ideal S128 .f32) (ix1 o))
          (fun o => (V c main_arg10 : Vec Ideal S128 .f32) (ix1 o)) v o := by
  rw [arr1_eq]
  rfl

end Cert.KernelIdeal.RegionValue

end
-- ==== Proof.RefStage.lean ====
/-
  The reference's two stages, read at an index.

  After the gather the reference holds, per sample `b`, a table of K features at each pooled vertex; it multiplies by the
  weight (`dot_general` over the feature axis), adds the bias, takes the mean and the biased variance over the VERTEX axis
  (two `reduce add` into [16,128], divided by 10242), normalises, scales, shifts and applies the leaky ReLU. Read at
  `(b, v, o)` that is `Spec.stage` of sample `b`'s table, at `(v, o)`: a host sum is its initial value `0` plus the sum over
  the vertices, and `0 + s = s` on the extended reals.
-/
import proofs.«405148_j26792005992604_1_alg».proof.Proof.RefRead
import proofs.«405148_j26792005992604_1_alg».proof.Proof.Spec
import Idealize.ShloMosaic.Lib.ValueIdx
import Idealize.ShloMosaic.PureOps.Ideal.Laws

noncomputable section

namespace Cert.ReferenceIdeal.Stage

open Idealize.ShloMosaic Cert.ReferenceIdeal Cert.ReferenceIdeal.ReadP ValueIdx

/-! ## Stage 1: the index equations -/

theorem lidx20 (b : Fin 16) (v : Fin 10242) (o : Fin 128) (k : Fin 448) :
    lidx_main_v20 (ix3 b v o) k = ix3 b v k :=
  funext fun a => Fin.ext (by match a with | ⟨0, _⟩ => rfl | ⟨1, _⟩ => rfl | ⟨2, _⟩ => rfl)

theorem ridx20 (b : Fin 16) (v : Fin 10242) (o : Fin 128) (k : Fin 448) :
    ridx_main_v20 (ix3 b v o) k = ix2 k o :=
  funext fun a => Fin.ext (by match a with | ⟨0, _⟩ => rfl | ⟨1, _⟩ => rfl)

theorem idx21_22 (b : Fin 16) (v : Fin 10242) (o : Fin 128) :
    idx_main_v21 (idx_main_v22 (ix3 b v o)) = ix1 o :=
  funext fun a => Fin.ext (by match a with | ⟨0, _⟩ => rfl)

/-- The linear part %23 at `(b, v, o)`: the matrix product of sample `b`'s table with W1, plus the bias. -/
theorem lin1 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 : (⟨S128, .f32⟩ : BufTy).Contents (Elt Ideal))
    (b : Fin 16) (v : Fin 10242) (o : Fin 128) :
    val_main_v23 (F := Ideal) x0 x1 x2 x3 x4 (ix3 b v o)
      = Cert.Spec.lin (K := 448) (fun v k => val_main_v19 (F := Ideal) x0 x1 x2 (ix3 b v k)) (fun k o => x3 (ix2 k o))
          (fun o => x4 (ix1 o)) v o := by
  rw [val_main_v23_apply, val_main_v20_apply, val_main_v22_apply, val_main_v21_apply, idx21_22]
  generalize val_main_v19 (F := Ideal) x0 x1 x2 = G
  unfold Cert.Spec.lin
  refine congrArg₂ (· + ·) (Finset.sum_congr rfl fun k _ => ?_) rfl
  rw [lidx20, ridx20]

/-! The mean and the variance live in a [16,1,128] row; a [16,10242,128] broadcast reads it at vertex 0. -/

theorem idx24_25 (b : Fin 16) (o : Fin 128) (k : Fin 10242) :
    idx_main_v24 (idx_main_v25 (ix3 b (0 : Fin 1) o)) k = ix3 b k o :=
  funext fun a => Fin.ext (by match a with | ⟨0, _⟩ => rfl | ⟨1, _⟩ => rfl | ⟨2, _⟩ => rfl)

theorem idx31_32 (b : Fin 16) (o : Fin 128) (k : Fin 10242) :
    idx_main_v31 (idx_main_v32 (ix3 b (0 : Fin 1) o)) k = ix3 b k o :=
  funext fun a => Fin.ext (by match a with | ⟨0, _⟩ => rfl | ⟨1, _⟩ => rfl | ⟨2, _⟩ => rfl)

theorem idx28 (b : Fin 16) (v : Fin 10242) (o : Fin 128) :
    idx_main_v28 (ix3 b v o) = ix3 b (0 : Fin 1) o :=
  funext fun a => Fin.ext (by match a with | ⟨0, _⟩ => rfl | ⟨1, _⟩ => rfl | ⟨2, _⟩ => rfl)

theorem idx35 (b : Fin 16) (v : Fin 10242) (o : Fin 128) :
    idx_main_v35 (ix3 b v o) = ix3 b (0 : Fin 1) o :=
  funext fun a => Fin.ext (by match a with | ⟨0, _⟩ => rfl | ⟨1, _⟩ => rfl | ⟨2, _⟩ => rfl)

theorem idx40 (b : Fin 16) (v : Fin 10242) (o : Fin 128) :
    idx_main_v40 (ix3 b v o) = ix3 b (0 : Fin 1) o :=
  funext fun a => Fin.ext (by match a with | ⟨0, _⟩ => rfl | ⟨1, _⟩ => rfl | ⟨2, _⟩ => rfl)

theorem idx42_43 (b : Fin 16) (v : Fin 10242) (o : Fin 128) :
    idx_main_v42 (idx_main_v43 (ix3 b v o)) = ix1 o :=
  funext fun a => Fin.ext (by match a with | ⟨0, _⟩ => rfl)

theorem idx45_46 (b : Fin 16) (v : Fin 10242) (o : Fin 128) :
    idx_main_v45 (idx_main_v46 (ix3 b v o)) = ix1 o :=
  funext fun a => Fin.ext (by match a with | ⟨0, _⟩ => rfl)

/-- The mean row %27 at `(b, 0, o)`: the host sum starts from the zero word, and `0 + s = s`. -/
theorem mean1 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 : (⟨S128, .f32⟩ : BufTy).Contents (Elt Ideal))
    (b : Fin 16) (o : Fin 128) :
    val_main_v27 (F := Ideal) x0 x1 x2 x3 x4 (ix3 b (0 : Fin 1) o)
      = Cert.Spec.mean (Cert.Spec.lin (K := 448) (fun v k => val_main_v19 (F := Ideal) x0 x1 x2 (ix3 b v k))
          (fun k o => x3 (ix2 k o)) (fun o => x4 (ix1 o))) o := by
  rw [val_main_v27_apply, val_main_v25_apply, val_main_v24_apply, val_main_v26_apply, val_main_cst_5_apply,
    val_main_cst_4_apply, Ideal.hostDivf_def, Ideal.ofBits_def, Ideal.ofBits_def, Ideal.ofBits_zero_f32, zero_add]
  unfold Cert.Spec.mean Cert.Spec.nV
  refine congrArg (Ideal.div · _) (Finset.sum_congr rfl fun k _ => ?_)
  rw [idx24_25, lin1]

/-- The deviation %29 (and again %36) at `(b, v, o)`. -/
theorem dev29 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 : (⟨S128, .f32⟩ : BufTy).Contents (Elt Ideal))
    (b : Fin 16) (v : Fin 10242) (o : Fin 128) :
    val_main_v29 (F := Ideal) x0 x1 x2 x3 x4 (ix3 b v o)
      = Cert.Spec.dev (Cert.Spec.lin (K := 448) (fun v k => val_main_v19 (F := Ideal) x0 x1 x2 (ix3 b v k))
          (fun k o => x3 (ix2 k o)) (fun o => x4 (ix1 o))) v o := by
  rw [val_main_v29_apply, val_main_v28_apply, idx28, mean1, lin1, Ideal.subf_def]
  rfl

theorem dev36 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 : (⟨S128, .f32⟩ : BufTy).Contents (Elt Ideal))
    (b : Fin 16) (v : Fin 10242) (o : Fin 128) :
    val_main_v36 (F := Ideal) x0 x1 x2 x3 x4 (ix3 b v o)
      = Cert.Spec.dev (Cert.Spec.lin (K := 448) (fun v k => val_main_v19 (F := Ideal) x0 x1 x2 (ix3 b v k))
          (fun k o => x3 (ix2 k o)) (fun o => x4 (ix1 o))) v o := by
  rw [val_main_v36_apply, val_main_v35_apply, idx35, mean1, lin1, Ideal.subf_def]
  rfl

/-- The variance row %34 at `(b, 0, o)`. -/
theorem var1 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 : (⟨S128, .f32⟩ : BufTy).Contents (Elt Ideal))
    (b : Fin 16) (o : Fin 128) :
    val_main_v34 (F := Ideal) x0 x1 x2 x3 x4 (ix3 b (0 : Fin 1) o)
      = Cert.Spec.var (Cert.Spec.lin (K := 448) (fun v k => val_main_v19 (F := Ideal) x0 x1 x2 (ix3 b v k))
          (fun k o => x3 (ix2 k o)) (fun o => x4 (ix1 o))) o := by
  rw [val_main_v34_apply, val_main_v32_apply, val_main_v31_apply, val_main_v33_apply, val_main_cst_7_apply,
    val_main_cst_6_apply, Ideal.hostDivf_def, Ideal.ofBits_def, Ideal.ofBits_def, Ideal.ofBits_zero_f32, zero_add]
  unfold Cert.Spec.var Cert.Spec.nV
  refine congrArg (Ideal.div · _) (Finset.sum_congr rfl fun k _ => ?_)
  rw [idx31_32, val_main_v30_apply, dev29, Ideal.mulf_def]

/-- The normalised, scaled and shifted value %47 at `(b, v, o)`. -/
theorem norm1 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (b : Fin 16) (v : Fin 10242) (o : Fin 128) :
    val_main_v47 (F := Ideal) x0 x1 x2 x3 x4 x5 x6 (ix3 b v o)
      = Cert.Spec.norm (Cert.Spec.lin (K := 448) (fun v k => val_main_v19 (F := Ideal) x0 x1 x2 (ix3 b v k))
          (fun k o => x3 (ix2 k o)) (fun o => x4 (ix1 o))) (fun o => x5 (ix1 o)) (fun o => x6 (ix1 o)) v o := by
  rw [val_main_v47_apply, val_main_v44_apply, val_main_v41_apply, val_main_v46_apply, val_main_v45_apply, idx45_46,
    val_main_v43_apply, val_main_v42_apply, idx42_43, val_main_v40_apply, idx40, val_main_v39_apply, val_main_v38_apply,
    val_main_v37_apply, val_main_cst_8_apply, var1, dev36, Ideal.hostUnary_rsqrt_def, Ideal.addf_def, Ideal.addf_def,
    Ideal.mulf_def, Ideal.mulf_def, Ideal.ofBits_def]
  rfl

/-- Stage 1 at `(b, v, o)`: `Spec.stage` of the gathered table of sample `b` (the reference's %19) with W1, b1, g1, beta1. -/
theorem stage1_apply (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (b : Fin 16) (v : Fin 10242) (o : Fin 128) :
    val_main_v52 (F := Ideal) x0 x1 x2 x3 x4 x5 x6 (ix3 b v o)
      = Cert.Spec.stage (K := 448) (fun v k => val_main_v19 (F := Ideal) x0 x1 x2 (ix3 b v k)) (fun k o => x3 (ix2 k o))
          (fun o => x4 (ix1 o)) (fun o => x5 (ix1 o)) (fun o => x6 (ix1 o)) v o := by
  rw [val_main_v52_apply, val_main_v49_apply, val_main_v51_apply, val_main_v48_apply, val_main_v50_apply,
    val_main_cst_9_apply, val_main_cst_10_apply, norm1, Ideal.cmpf_def, Ideal.mulf_def, Ideal.ofBits_def, Ideal.ofBits_def,
    Ideal.ofBits_zero_f32]
  rfl

/-! ## Stage 2: the same operations on the second gathered table (%60) with W2 -/

theorem lidx61 (b : Fin 16) (v : Fin 10242) (o : Fin 128) (k : Fin 896) :
    lidx_main_v61 (ix3 b v o) k = ix3 b v k :=
  funext fun a => Fin.ext (by match a with | ⟨0, _⟩ => rfl | ⟨1, _⟩ => rfl | ⟨2, _⟩ => rfl)

theorem ridx61 (b : Fin 16) (v : Fin 10242) (o : Fin 128) (k : Fin 896) :
    ridx_main_v61 (ix3 b v o) k = ix2 k o :=
  funext fun a => Fin.ext (by match a with | ⟨0, _⟩ => rfl | ⟨1, _⟩ => rfl)

theorem idx62_63 (b : Fin 16) (v : Fin 10242) (o : Fin 128) :
    idx_main_v62 (idx_main_v63 (ix3 b v o)) = ix1 o :=
  funext fun a => Fin.ext (by match a with | ⟨0, _⟩ => rfl)

theorem idx65_66 (b : Fin 16) (o : Fin 128) (k : Fin 10242) :
    idx_main_v65 (idx_main_v66 (ix3 b (0 : Fin 1) o)) k = ix3 b k o :=
  funext fun a => Fin.ext (by match a with | ⟨0, _⟩ => rfl | ⟨1, _⟩ => rfl | ⟨2, _⟩ => rfl)

theorem idx72_73 (b : Fin 16) (o : Fin 128) (k : Fin 10242) :
    idx_main_v72 (idx_main_v73 (ix3 b (0 : Fin 1) o)) k = ix3 b k o :=
  funext fun a => Fin.ext (by match a with | ⟨0, _⟩ => rfl | ⟨1, _⟩ => rfl | ⟨2, _⟩ => rfl)

theorem idx69 (b : Fin 16) (v : Fin 10242) (o : Fin 128) :
    idx_main_v69 (ix3 b v o) = ix3 b (0 : Fin 1) o :=
  funext fun a => Fin.ext (by match a with | ⟨0, _⟩ => rfl | ⟨1, _⟩ => rfl | ⟨2, _⟩ => rfl)

theorem idx76 (b : Fin 16) (v : Fin 10242) (o : Fin 128) :
    idx_main_v76 (ix3 b v o) = ix3 b (0 : Fin 1) o :=
  funext fun a => Fin.ext (by match a with | ⟨0, _⟩ => rfl | ⟨1, _⟩ => rfl | ⟨2, _⟩ => rfl)

theorem idx81 (b : Fin 16) (v : Fin 10242) (o : Fin 128) :
    idx_main_v81 (ix3 b v o) = ix3 b (0 : Fin 1) o :=
  funext fun a => Fin.ext (by match a with | ⟨0, _⟩ => rfl | ⟨1, _⟩ => rfl | ⟨2, _⟩ => rfl)

theorem idx83_84 (b : Fin 16) (v : Fin 10242) (o : Fin 128) :
    idx_main_v83 (idx_main_v84 (ix3 b v o)) = ix1 o :=
  funext fun a => Fin.ext (by match a with | ⟨0, _⟩ => rfl)

theorem idx86_87 (b : Fin 16) (v : Fin 10242) (o : Fin 128) :
    idx_main_v86 (idx_main_v87 (ix3 b v o)) = ix1 o :=
  funext fun a => Fin.ext (by match a with | ⟨0, _⟩ => rfl)

/-- The linear part %64 at `(b, v, o)`: the matrix product of sample `b`'s second table with W2, plus the bias. -/
theorem lin2 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (x7 : (⟨S896x128, .f32⟩ : BufTy).Contents (Elt Ideal)) (x8 : (⟨S128, .f32⟩ : BufTy).Contents (Elt Ideal))
    (b : Fin 16) (v : Fin 10242) (o : Fin 128) :
    val_main_v64 (F := Ideal) x0 x1 x2 x3 x4 x5 x6 x7 x8 (ix3 b v o)
      = Cert.Spec.lin (K := 896) (fun v k => val_main_v60 (F := Ideal) x0 x1 x2 x3 x4 x5 x6 (ix3 b v k))
          (fun k o => x7 (ix2 k o)) (fun o => x8 (ix1 o)) v o := by
  rw [val_main_v64_apply, val_main_v61_apply, val_main_v63_apply, val_main_v62_apply, idx62_63]
  generalize val_main_v60 (F := Ideal) x0 x1 x2 x3 x4 x5 x6 = G
  unfold Cert.Spec.lin
  refine congrArg₂ (· + ·) (Finset.sum_congr rfl fun k _ => ?_) rfl
  rw [lidx61, ridx61]

/-- The mean row %68 at `(b, 0, o)`. -/
theorem mean2 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (x7 : (⟨S896x128, .f32⟩ : BufTy).Contents (Elt Ideal)) (x8 : (⟨S128, .f32⟩ : BufTy).Contents (Elt Ideal))
    (b : Fin 16) (o : Fin 128) :
    val_main_v68 (F := Ideal) x0 x1 x2 x3 x4 x5 x6 x7 x8 (ix3 b (0 : Fin 1) o)
      = Cert.Spec.mean (Cert.Spec.lin (K := 896) (fun v k => val_main_v60 (F := Ideal) x0 x1 x2 x3 x4 x5 x6 (ix3 b v k))
          (fun k o => x7 (ix2 k o)) (fun o => x8 (ix1 o))) o := by
  rw [val_main_v68_apply, val_main_v66_apply, val_main_v65_apply, val_main_v67_apply, val_main_cst_14_apply,
    val_main_cst_13_apply, Ideal.hostDivf_def, Ideal.ofBits_def, Ideal.ofBits_def, Ideal.ofBits_zero_f32, zero_add]
  unfold Cert.Spec.mean Cert.Spec.nV
  refine congrArg (Ideal.div · _) (Finset.sum_congr rfl fun k _ => ?_)
  rw [idx65_66, lin2]

/-- The deviation %70 (and again %77) at `(b, v, o)`. -/
theorem dev70 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (x7 : (⟨S896x128, .f32⟩ : BufTy).Contents (Elt Ideal)) (x8 : (⟨S128, .f32⟩ : BufTy).Contents (Elt Ideal))
    (b : Fin 16) (v : Fin 10242) (o : Fin 128) :
    val_main_v70 (F := Ideal) x0 x1 x2 x3 x4 x5 x6 x7 x8 (ix3 b v o)
      = Cert.Spec.dev (Cert.Spec.lin (K := 896) (fun v k => val_main_v60 (F := Ideal) x0 x1 x2 x3 x4 x5 x6 (ix3 b v k))
          (fun k o => x7 (ix2 k o)) (fun o => x8 (ix1 o))) v o := by
  rw [val_main_v70_apply, val_main_v69_apply, idx69, mean2, lin2, Ideal.subf_def]
  rfl

theorem dev77 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (x7 : (⟨S896x128, .f32⟩ : BufTy).Contents (Elt Ideal)) (x8 : (⟨S128, .f32⟩ : BufTy).Contents (Elt Ideal))
    (b : Fin 16) (v : Fin 10242) (o : Fin 128) :
    val_main_v77 (F := Ideal) x0 x1 x2 x3 x4 x5 x6 x7 x8 (ix3 b v o)
      = Cert.Spec.dev (Cert.Spec.lin (K := 896) (fun v k => val_main_v60 (F := Ideal) x0 x1 x2 x3 x4 x5 x6 (ix3 b v k))
          (fun k o => x7 (ix2 k o)) (fun o => x8 (ix1 o))) v o := by
  rw [val_main_v77_apply, val_main_v76_apply, idx76, mean2, lin2, Ideal.subf_def]
  rfl

/-- The variance row %75 at `(b, 0, o)`. -/
theorem var2 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (x7 : (⟨S896x128, .f32⟩ : BufTy).Contents (Elt Ideal)) (x8 : (⟨S128, .f32⟩ : BufTy).Contents (Elt Ideal))
    (b : Fin 16) (o : Fin 128) :
    val_main_v75 (F := Ideal) x0 x1 x2 x3 x4 x5 x6 x7 x8 (ix3 b (0 : Fin 1) o)
      = Cert.Spec.var (Cert.Spec.lin (K := 896) (fun v k => val_main_v60 (F := Ideal) x0 x1 x2 x3 x4 x5 x6 (ix3 b v k))
          (fun k o => x7 (ix2 k o)) (fun o => x8 (ix1 o))) o := by
  rw [val_main_v75_apply, val_main_v73_apply, val_main_v72_apply, val_main_v74_apply, val_main_cst_16_apply,
    val_main_cst_15_apply, Ideal.hostDivf_def, Ideal.ofBits_def, Ideal.ofBits_def, Ideal.ofBits_zero_f32, zero_add]
  unfold Cert.Spec.var Cert.Spec.nV
  refine congrArg (Ideal.div · _) (Finset.sum_congr rfl fun k _ => ?_)
  rw [idx72_73, val_main_v71_apply, dev70, Ideal.mulf_def]

/-- The normalised, scaled and shifted value %88 at `(b, v, o)`. -/
theorem norm2 (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (x7 : (⟨S896x128, .f32⟩ : BufTy).Contents (Elt Ideal)) (x8 x9 x10 : (⟨S128, .f32⟩ : BufTy).Contents (Elt Ideal))
    (b : Fin 16) (v : Fin 10242) (o : Fin 128) :
    val_main_v88 (F := Ideal) x0 x1 x2 x3 x4 x5 x6 x7 x8 x9 x10 (ix3 b v o)
      = Cert.Spec.norm (Cert.Spec.lin (K := 896) (fun v k => val_main_v60 (F := Ideal) x0 x1 x2 x3 x4 x5 x6 (ix3 b v k))
          (fun k o => x7 (ix2 k o)) (fun o => x8 (ix1 o))) (fun o => x9 (ix1 o)) (fun o => x10 (ix1 o)) v o := by
  rw [val_main_v88_apply, val_main_v85_apply, val_main_v82_apply, val_main_v87_apply, val_main_v86_apply, idx86_87,
    val_main_v84_apply, val_main_v83_apply, idx83_84, val_main_v81_apply, idx81, val_main_v80_apply, val_main_v79_apply,
    val_main_v78_apply, val_main_cst_17_apply, var2, dev77, Ideal.hostUnary_rsqrt_def, Ideal.addf_def, Ideal.addf_def,
    Ideal.mulf_def, Ideal.mulf_def, Ideal.ofBits_def]
  rfl

/-- Stage 2 at `(b, v, o)`: `Spec.stage` of the second gathered table of sample `b` (the reference's %60) with W2, b2, g2, beta2. -/
theorem stage2_apply (x0 : (⟨S16x64x40962, .f32⟩ : BufTy).Contents (Elt Ideal)) (x1 x2 : (⟨S71694, .i32⟩ : BufTy).Contents (Elt Ideal))
    (x3 : (⟨S448x128, .f32⟩ : BufTy).Contents (Elt Ideal)) (x4 x5 x6 : (⟨S128, .f32⟩ : BufTy).Contents (Elt Ideal))
    (x7 : (⟨S896x128, .f32⟩ : BufTy).Contents (Elt Ideal)) (x8 x9 x10 : (⟨S128, .f32⟩ : BufTy).Contents (Elt Ideal))
    (b : Fin 16) (v : Fin 10242) (o : Fin 128) :
    val_main_v93 (F := Ideal) x0 x1 x2 x3 x4 x5 x6 x7 x8 x9 x10 (ix3 b v o)
      = Cert.Spec.stage (K := 896) (fun v k => val_main_v60 (F := Ideal) x0 x1 x2 x3 x4 x5 x6 (ix3 b v k)) (fun k o => x7 (ix2 k o))
          (fun o => x8 (ix1 o)) (fun o => x9 (ix1 o)) (fun o => x10 (ix1 o)) v o := by
  rw [val_main_v93_apply, val_main_v90_apply, val_main_v92_apply, val_main_v89_apply, val_main_v91_apply,
    val_main_cst_18_apply, val_main_cst_19_apply, norm2, Ideal.cmpf_def, Ideal.mulf_def, Ideal.ofBits_def, Ideal.ofBits_def,
    Ideal.ofBits_zero_f32]
  rfl

end Cert.ReferenceIdeal.Stage

end
-- ==== Proof.KernelValue.lean ====
/-
  The kernel's result is the reference's function of the arguments, when the two index tables are in range.

  Under the range hypotheses every `jnp.take` keeps every row, so it is the plain gather of the wrapped index column: the
  same gather the reference's indexing does. Then, going down the program:
    * the pooled features are the reference's (%11), and the first region's input table is its gathered table (%19);
      storing it as bf16 changes nothing on the extended reals;
    * the first region's output array is, entry by entry, `Spec.stage` of each sample's table: the reference's %52;
    * the second region's input table is therefore the reference's %60, and its output array the reference's %93;
    * the transpose back gives the reference's result %94.
-/
import proofs.«405148_j26792005992604_1_alg».proof.Proof.KernelHost
import proofs.«405148_j26792005992604_1_alg».proof.Proof.RegionValue
import proofs.«405148_j26792005992604_1_alg».proof.Proof.RefStage

set_option maxRecDepth 16384

noncomputable section

namespace Cert.KernelIdeal.ValueV

open Cert.KernelIdeal Cert.KernelIdeal.Gen Cert.KernelIdeal.HostV
open Idealize.ShloMosaic Idealize.ShloMosaic.TcCoe Idealize.SL.Sem ValueIdx
open Cert.ReferenceIdeal.ReadP

/-- Every wrapped entry of a table is a row of an axis of extent `hi + 1`. -/
abbrev InRange (n hi : BitVec 32) (a : IVec S71694 32) : Prop :=
  ∀ p : S71694.Idx, Cert.Ranges.inb hi (Cert.Ranges.wrap n (a p)) = 1#1

section Hosts

variable {F : FTy → Type} [FloatOps F]
variable (a0 : FVec F S16x64x40962 .f32) (a1 a2 : IVec S71694 32)
variable (h1 : InRange 40962#32 40961#32 a1) (h2 : InRange 10242#32 10241#32 a2)

include h1 in
/-- The take at the pooling table is the reference's gather %7. -/
theorem take0_eq : take0 a0 a1 = val_main_v7 (F := F) a0 a1 := by
  unfold take0
  rw [Cert.TakeMask.select_keep (h := h1)]
  rfl

include h1 in
/-- The pooled features are the reference's %11. -/
theorem pooled_eq : pooled a0 a1 = val_main_v11 (F := F) a0 a1 := by
  unfold pooled
  rw [take0_eq a0 a1 h1]
  rfl

include h2 in
/-- The take of a 64-channel array at the neighbour table is the plain gather of the wrapped column. -/
theorem take1_eq (h : FVec F S16x10242x64 .f32) :
    take1 h a2 = Host.gather Cert.ReferenceIdeal.gather_S16x10242x64_S71694x1_S16x71694x64_02_1_n_n_1_1_16164 h (val_main_v17 (F := F) a2) := by
  unfold take1
  rw [Cert.TakeMask.select_keep (h := h2)]
  rfl

include h2 in
/-- The take of a 128-channel array at the neighbour table is the plain gather of the wrapped column. -/
theorem take2_eq (h : FVec F S16x10242x128 .f32) :
    take2 h a2 = Host.gather Cert.ReferenceIdeal.gather_S16x10242x128_S71694x1_S16x71694x128_02_1_n_n_1_1_161128 h (val_main_v58 (F := F) a2) := by
  unfold take2
  rw [Cert.TakeMask.select_keep (h := h2)]
  rfl

end Hosts

section Tables

variable (x0 : FVec Ideal S16x64x40962 .f32) (x1 x2 : IVec S71694 32)
variable (h1 : InRange 40962#32 40961#32 x1) (h2 : InRange 10242#32 10241#32 x2)

include h1 h2 in
/-- The first region's input table is the reference's gathered table %19 (bf16 storage is the identity here). -/
theorem tab1_eq : (tab1 (F := Ideal) x0 x1 x2 : S16x10242x448.Idx → EReal) = val_main_v19 (F := Ideal) x0 x1 x2 := by
  unfold tab1
  rw [pooled_eq x0 x1 h1, take1_eq x2 h2]
  rfl

include h2 in
/-- The second region's input table is the reference's %60 once the first region's output is its %52. -/
theorem tab2_eq (x3 : FVec Ideal S448x128 .f32) (x4 x5 x6 : FVec Ideal S128 .f32) :
    (tab2 (F := Ideal) (val_main_v52 (F := Ideal) x0 x1 x2 x3 x4 x5 x6) x2 : S16x10242x896.Idx → EReal)
      = val_main_v60 (F := Ideal) x0 x1 x2 x3 x4 x5 x6 := by
  unfold tab2
  rw [take2_eq x2 h2]
  rfl

end Tables

section Run

variable (m : (ℓ : Loc nD τ sig) → Buf (Elt Ideal) ℓ) (ρ : Dev nD → PrngReg) (c : Dev nD)
variable (h1 : InRange 40962#32 40961#32 (m ((c : Thread nD τ).loc main_arg1))) (h2 : InRange 10242#32 10241#32 (m ((c : Thread nD τ).loc main_arg2)))

include h1 h2 in
/-- The first region's output array is the reference's first stage %52. -/
theorem out0_eq :
    (V6 m ρ c main_v10 : S16x10242x128.Idx → EReal)
      = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, v, o, rfl⟩ : ∃ (b : Fin 16) (v : Fin 10242) (o : Fin 128), i = ix3 b v o := ⟨i 0, i 1, i 2, eq_ix3 i⟩
  rw [V6_v10 m ρ c]
  refine (Cert.KernelIdeal.RegionValue.final0 (V5 m ρ) c b v o).trans ?_
  rw [Cert.ReferenceIdeal.Stage.stage1_apply, V5_v8 m ρ c, V5_v9 m ρ c, (V5_arg m ρ c).2.1, (V5_arg m ρ c).2.2.1, (V5_arg m ρ c).2.2.2.1,
    tab1_eq _ _ _ h1 h2]
  rfl

include h1 h2 in
/-- The second region's output array is the reference's second stage %93. -/
theorem out1_eq :
    (V9 m ρ c main_v15 : S16x10242x128.Idx → EReal)
      = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨b, v, o, rfl⟩ : ∃ (b : Fin 16) (v : Fin 10242) (o : Fin 128), i = ix3 b v o := ⟨i 0, i 1, i 2, eq_ix3 i⟩
  rw [V9_v15 m ρ c]
  refine (Cert.KernelIdeal.RegionValue.final1 (V8 m ρ) c b v o).trans ?_
  rw [Cert.ReferenceIdeal.Stage.stage2_apply, V8_v13 m ρ c, (V8_rest m ρ c).1, (V8_rest m ρ c).2.1, (V8_rest m ρ c).2.2.1, (V8_rest m ρ c).2.2.2,
    out0_eq m ρ c h1 h2, tab2_eq _ _ _ h2]
  rfl

include h1 h2 in
/-- THE RESULT: what the program's segments leave in the result buffer is the reference's %94 of the launch arguments. -/
theorem result_eq :
    W10 m ρ c (Proc.devRef .tc main_v16)
      = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W10_v16 m ρ c, out1_eq m ρ c h1 h2]
  rfl

end Run

end Cert.KernelIdeal.ValueV

end
-- ==== Proof.lean ====
/-
  The kernel (two fused conv + BatchNorm + leaky-ReLU pallas_calls around `jnp.take` gathers on an icosahedral mesh) against
  its jnp reference: `Cert.Claim`, under the precondition that the float inputs are finite and every entry of the two
  index tables lies in `[−n, n)` for the extent `n` of the axis it indexes.

  Both programs transpose the input to (sample, vertex, channel), gather the rows of the pooling table and average them
  in sevens, then twice: gather each vertex's seven neighbour rows as one row of features, multiply by a weight, add a
  bias, normalise over the vertex axis with the biased variance, scale, shift, and apply a leaky ReLU; and transpose back.
  They differ in two ways. The kernel gathers with `jnp.take`, which fills a row whose wrapped index is out of range with
  NaN where plain indexing clamps: under the range precondition no row is filled, and the two gathers are one (Ranges,
  TakeMask, KernelValue). And the kernel does each conv + norm + ReLU stage sample by sample inside a pallas_call, on bf16
  copies of the table and the weight, where the reference does it on whole arrays: on the extended reals a change of float
  format is the identity, a matrix product is a sum over the contracted axis and a reduction a sum over the vertices, so
  both are `Spec.stage` index by index (KernelStage and RegionValue for the kernel, RefStage for the reference). No law
  beyond `0 + s = s` is needed, so finiteness of the float inputs is never used.

  The three frames are the generated ones (the reference's is its run with the result dropped); `preserves` is `True`
  (the ideal pass rewrote nothing); `algebraic` pairs the kernel's run with its result buffer named (KernelRun) with the
  reference's run (RefRun), both at the reference's stage function %94 of the arguments.
-/
import proofs.«405148_j26792005992604_1_alg».proof.Defs
import proofs.«405148_j26792005992604_1_alg».proof.Proof.Gen.Kernel
import proofs.«405148_j26792005992604_1_alg».proof.Proof.Gen.Kernel.Skeleton
import proofs.«405148_j26792005992604_1_alg».proof.Proof.Gen.Kernel.Launch
import proofs.«405148_j26792005992604_1_alg».proof.Proof.Gen.Kernel.Points
import proofs.«405148_j26792005992604_1_alg».proof.Proof.Gen.Kernel.Frame
import proofs.«405148_j26792005992604_1_alg».proof.Proof.Gen.KernelIdeal
import proofs.«405148_j26792005992604_1_alg».proof.Proof.Gen.KernelIdeal.Skeleton
import proofs.«405148_j26792005992604_1_alg».proof.Proof.Gen.KernelIdeal.Launch
import proofs.«405148_j26792005992604_1_alg».proof.Proof.Gen.KernelIdeal.Points
import proofs.«405148_j26792005992604_1_alg».proof.Proof.Gen.KernelIdeal.Frame
import proofs.«405148_j26792005992604_1_alg».proof.Proof.Gen.ReferenceIdeal
import proofs.«405148_j26792005992604_1_alg».proof.Proof.RefRead
import proofs.«405148_j26792005992604_1_alg».proof.Proof.RefRun
import proofs.«405148_j26792005992604_1_alg».proof.Proof.Gen.Pre_finite_inputs
import proofs.«405148_j26792005992604_1_alg».proof.Proof.Ranges
import proofs.«405148_j26792005992604_1_alg».proof.Proof.KernelRun
import proofs.«405148_j26792005992604_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The reference runs and leaves its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end at the reference's function %94 of them: the kernel's by
    `ValueV.result_eq` (the precondition gives the two range hypotheses, device by device), the reference's by its run. -/
theorem algebraic : Cert.algebraic_KernelIdeal_ReferenceIdeal := by
  intro m ρ m' ρ' hpre hagree
  have h1 : ∀ c : Dev Cert.KernelIdeal.nD, Cert.KernelIdeal.ValueV.InRange 40962#32 40961#32
      (m ((c.tc : Thread Cert.KernelIdeal.nD Cert.KernelIdeal.τ).loc Cert.KernelIdeal.main_arg1)) :=
    fun c p => Cert.Ranges.pool_inb _ _ _ _ _ _ _ _ _ _ _ (hpre c) p
  have h2 : ∀ c : Dev Cert.KernelIdeal.nD, Cert.KernelIdeal.ValueV.InRange 10242#32 10241#32
      (m ((c.tc : Thread Cert.KernelIdeal.nD Cert.KernelIdeal.τ).loc Cert.KernelIdeal.main_arg2)) :=
    fun c p => Cert.Ranges.neigh_inb _ _ _ _ _ _ _ _ _ _ _ (hpre c) p
  refine ⟨fun c => Cert.KernelIdeal.Gen.W10 m ρ c (Proc.devRef .tc Cert.KernelIdeal.main_v16),
    Cert.KernelIdeal.RunV.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  beta_reduce
  rw [Cert.KernelIdeal.ValueV.result_eq m ρ c (h1 c) (h2 c)]
  unfold Cert.ReferenceIdeal.ValueP.res_main_v94
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
